-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S100000 : Shape := ⟨1, ![100000]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x16 .f32) (main_arg1 : FVec F S100000x16 .f32) (main_arg2 : FVec F S100000 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x16 : Shape := ⟨2, ![1024, 16]⟩
abbrev S100000x16 : Shape := ⟨2, ![100000, 16]⟩
abbrev S100000 : Shape := ⟨1, ![100000]⟩
abbrev S100x1000 : Shape := ⟨2, ![100, 1000]⟩
abbrev S2000x16 : Shape := ⟨2, ![2000, 16]⟩
abbrev S1024x1 : Shape := ⟨2, ![1024, 1]⟩
abbrev S1024 : Shape := ⟨1, ![1024]⟩
abbrev S2000 : Shape := ⟨1, ![2000]⟩
abbrev S2000x1 : Shape := ⟨2, ![2000, 1]⟩
abbrev S1024x2000 : Shape := ⟨2, ![1024, 2000]⟩
abbrev S1x100x1000 : Shape := ⟨3, ![1, 100, 1000]⟩
abbrev S1 : Shape := ⟨1, ![1]⟩
abbrev S1x1x1 : Shape := ⟨3, ![1, 1, 1]⟩

abbrev nBuf : Space → Nat
  | .hbm => 7
  | .vmem => 8
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000, .f32⟩
  | .hbm, ⟨3, _⟩ => ⟨S1024x16, .f32⟩
  | .hbm, ⟨4, _⟩ => ⟨S100x1000, .f32⟩
  | .hbm, ⟨5, _⟩ => ⟨S100x1000, .f32⟩
  | .hbm, ⟨6, _⟩ => ⟨S100000, .f32⟩
  | .local _ .vmem, ⟨0, _⟩ => ⟨S1024x16, .f32⟩
  | .local _ .vmem, ⟨1, _⟩ => ⟨S2000x16, .f32⟩
  | .local _ .vmem, ⟨2, _⟩ => ⟨S2000x16, .f32⟩
  | .local _ .vmem, ⟨3, _⟩ => ⟨S1024x16, .f32⟩
  | .local _ .vmem, ⟨4, _⟩ => ⟨S1024x16, .f32⟩
  | .local _ .vmem, ⟨5, _⟩ => ⟨S1024x1, .f32⟩
  | .local _ .vmem, ⟨6, _⟩ => ⟨S100x1000, .f32⟩
  | .local _ .vmem, ⟨7, _⟩ => ⟨S100x1000, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_call0_v1 : Ref sig .tc := ⟨.hbm, 4, rfl⟩
abbrev main_call0_v2 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v36 : BitVec 1 := Scalar.cmpi .eq arg0 c49_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S100x1000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S100x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

class Facts₀ : Prop where
  shapeCasts_S100000_S100x1000 : S100000.ShapeCasts S100x1000
  shapeCasts_S100x1000_S100000 : S100x1000.ShapeCasts S100000
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x16_S1024 : S1024x16.Reduces [1] S1024
  shapeCasts_S1024_S1024x1 : S1024.ShapeCasts S1024x1
  broadcasts_S1024x1_S1024x16 : S1024x1.Broadcasts S1024x16
  inb_S2000x16_S2000x16_0_0 : ∀ a, (![0, 0] : Fin 2 → Nat) a + S2000x16.size a ≤ S2000x16.size a
  h_S2000x16 : 0 < S2000x16.numel
  reduces_S2000x16_S2000 : S2000x16.Reduces [1] S2000
  shapeCasts_S2000_S2000x1 : S2000.ShapeCasts S2000x1
  broadcasts_S2000x1_S2000x16 : S2000x1.Broadcasts S2000x16
  reduces_S1024x2000_S1024 : S1024x2000.Reduces [1] S1024
  inb_S100x1000_S100x1000_0_0 : ∀ a, (![0, 0] : Fin 2 → Nat) a + S100x1000.size a ≤ S100x1000.size a
  h_S100x1000 : 0 < S100x1000.numel
  shapeCasts_S100x1000_S100x1000 : S100x1000.ShapeCasts S100x1000
  shapeCasts_S100x1000_S1x100x1000 : S100x1000.ShapeCasts S1x100x1000
  reduces_S1x100x1000_S1 : S1x100x1000.Reduces [1, 2] S1
  shapeCasts_S1_S1x1x1 : S1.ShapeCasts S1x1x1
  inpos_S1x1x1_p0_0_0 : ∀ a, (![0, 0, 0] : Fin 3 → Nat) a < S1x1x1.size a
  dot_S1024x16_S2000x16_S1024x2000_1_1_0_0_n_n_wf : DotDims.WF S1024x16 S2000x16 S1024x2000 [1] [1] [0] [0] [] []
  dot_S1024x2000_S2000x16_S1024x16_1_0_0_1_n_n_wf : DotDims.WF S1024x2000 S2000x16 S1024x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .f32 = 32 ∨ (Rect.block (s := S100000x16) S2000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .f32 = 32 ∨ (Rect.block (s := S1024x16) S1024x16.size (cc0_transform_2 i) (hinb0_2 i)).WholeWords (EltTy.packing .f32)
  hstage1_0 : ∀ j, (stage1_0 j).IsWhole
  hstage1_1 : ∀ j, (stage1_1 j).IsWhole

variable [Facts₀]

def dot_S1024x16_S2000x16_S1024x2000_1_1_0_0_n_n : DotDims S1024x16 S2000x16 S1024x2000 where
  lhsContracting := [1]
  rhsContracting := [1]
  lhsNonContracting := [0]
  rhsNonContracting := [0]
  lhsBatch := []
  rhsBatch := []
  wf := dot_S1024x16_S2000x16_S1024x2000_1_1_0_0_n_n_wf
def dot_S1024x2000_S2000x16_S1024x16_1_0_0_1_n_n : DotDims S1024x2000 S2000x16 S1024x16 where
  lhsContracting := [1]
  rhsContracting := [0]
  lhsNonContracting := [0]
  rhsNonContracting := [1]
  lhsBatch := []
  rhsBatch := []
  wf := dot_S1024x2000_S2000x16_S1024x16_1_0_0_1_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.whole (Memref.whole main_call0_v1) false false (stage1_0 0) (sem1_0 0) (Memref.isWhole_whole _) (hstage1_0 0)

abbrev win1_1 : Pipeline.Window sig grid1 :=
  Pipeline.Window.whole (Memref.whole main_call0_v2) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x16 : Shape := ⟨2, ![1024, 16]⟩
abbrev S100000x16 : Shape := ⟨2, ![100000, 16]⟩
abbrev S100000 : Shape := ⟨1, ![100000]⟩
abbrev S_ : Shape := ⟨0, ![]⟩
abbrev S100000x1 : Shape := ⟨2, ![100000, 1]⟩
abbrev S1024 : Shape := ⟨1, ![1024]⟩
abbrev S1024x1 : Shape := ⟨2, ![1024, 1]⟩
abbrev S16x100000 : Shape := ⟨2, ![16, 100000]⟩
abbrev S1024x100000 : Shape := ⟨2, ![1024, 100000]⟩
abbrev S1 : Shape := ⟨1, ![1]⟩

abbrev nBuf : Space → Nat
  | .hbm => 53
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000, .f32⟩
  | .hbm, ⟨3, _⟩ => ⟨S100000x16, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S100000x1, .f32⟩
  | .hbm, ⟨10, _⟩ => ⟨S100000x1, .f32⟩
  | .hbm, ⟨11, _⟩ => ⟨S100000x16, .f32⟩
  | .hbm, ⟨12, _⟩ => ⟨S100000x16, .f32⟩
  | .hbm, ⟨13, _⟩ => ⟨S1024x16, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x16, .f32⟩
  | .hbm, ⟨22, _⟩ => ⟨S1024x16, .f32⟩
  | .hbm, ⟨23, _⟩ => ⟨S16x100000, .f32⟩
  | .hbm, ⟨24, _⟩ => ⟨S1024x100000, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S1024x100000, .f32⟩
  | .hbm, ⟨38, _⟩ => ⟨S1024x100000, .f32⟩
  | .hbm, ⟨39, _⟩ => ⟨S1024x16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1, .f32⟩
  | .hbm, ⟨45, _⟩ => ⟨S100000, .f32⟩
  | .hbm, ⟨46, _⟩ => ⟨S100000, .f32⟩
  | .hbm, ⟨47, _⟩ => ⟨S100000, .f32⟩
  | .hbm, ⟨48, _⟩ => ⟨S_, .f32⟩
  | .hbm, ⟨49, _⟩ => ⟨S_, .f32⟩
  | .hbm, ⟨50, _⟩ => ⟨S1, .f32⟩
  | .hbm, ⟨51, _⟩ => ⟨S100000, .f32⟩
  | .hbm, ⟨52, _⟩ => ⟨S100000, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  reducesTo_S1024x16_S1024_d1 : S1024x16.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x16_0_1 : S1024x1.BroadcastsInDim S1024x16 (![0, 1] : Fin 2 → Fin S1024x16.rank)
  transposes_S100000x16_S16x100000_1_0 : S100000x16.Transposes [1, 0] S16x100000
  reducesTo_S1024x100000_S1024_d1 : S1024x100000.ReducesTo [1] S1024
  bcast_S_S1024 : S_.BroadcastsInDim S1024 (![] : Fin 0 → Fin S1024.rank)
  bcast_S1024x1_S1024x100000_0_1 : S1024x1.BroadcastsInDim S1024x100000 (![0, 1] : Fin 2 → Fin S1024x100000.rank)
  reducesTo_S100000_S_d0 : S100000.ReducesTo [0] S_
  bcast_S_S1 : S_.BroadcastsInDim S1 (![] : Fin 0 → Fin S1.rank)
  bcast_S1_S100000_0 : S1.BroadcastsInDim S100000 (![0] : Fin 1 → Fin S100000.rank)
  dot_S1024x16_S16x100000_S1024x100000_1_0_0_1_n_n_wf : DotDims.WF S1024x16 S16x100000 S1024x100000 [1] [0] [0] [1] [] []
  dot_S1024x100000_S100000x16_S1024x16_1_0_0_1_n_n_wf : DotDims.WF S1024x100000 S100000x16 S1024x16 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf
def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf

class Facts : Prop extends Facts₀ where

variable [Facts]
-- ==== Proof.K.Acc.lean ====
/-
  The two running sums the first kernel keeps between grid points, as a recursion over the points.
  At point 0 both are reset to zero and the point's contribution added; at every later point the
  contribution of that point's block of the bank is added to what the point before left. The result block,
  written at the last point, is the quotient of the two.
-/
import proofs.«121708_g34351148433420_cont_8to1_b_51_5_alg».proof.Proof.Gen.Kernel.Skeleton

noncomputable section

namespace Cert.Kernel.Hand

open Idealize.ShloMosaic Cert.Kernel Cert.Kernel.Gen

variable {F : FTy → Type} [FloatOps F]

/-- The pair (weighted sum, sum of weights) after point `n`, from the query block `x` and the bank's
    blocks `gb 0, gb 1, …`. -/
def accAt (x : Vec F S1024x16 .f32) (gb : ℕ → Vec F S2000x16 .f32) : ℕ → Vec F S1024x16 .f32 × Vec F S1024x1 .f32
  | 0 => (k0_pay5 x (gb 0) (k0_pay2 (F := F)), k0_pay6 x (gb 0) (k0_pay3 (F := F)))
  | n + 1 => (k0_pay5 x (gb (n + 1)) (accAt x gb n).1, k0_pay6 x (gb (n + 1)) (accAt x gb n).2)

theorem accAt_zero (x : Vec F S1024x16 .f32) (gb : ℕ → Vec F S2000x16 .f32) :
    accAt x gb 0 = (k0_pay5 x (gb 0) (k0_pay2 (F := F)), k0_pay6 x (gb 0) (k0_pay3 (F := F))) := rfl

theorem accAt_succ (x : Vec F S1024x16 .f32) (gb : ℕ → Vec F S2000x16 .f32) (n : ℕ) :
    accAt x gb (n + 1) = (k0_pay5 x (gb (n + 1)) (accAt x gb n).1, k0_pay6 x (gb (n + 1)) (accAt x gb n).2) := rfl

/-- What the last point's quotient would be after point `n`. -/
def outAt (x : Vec F S1024x16 .f32) (gb : ℕ → Vec F S2000x16 .f32) (n : ℕ) : Vec F S1024x16 .f32 :=
  k0_pay1 (accAt x gb n).1 (accAt x gb n).2

end Cert.Kernel.Hand

end
-- ==== Proof.K.Body0.lean ====
/-
  The first kernel's body at one grid point, in its three control cases. At the first point the two running sums
  are reset to zero before the point's contribution is added; at every point the contribution of the point's block of
  the bank is added to both sums; at the last point the quotient of the two sums is stored into the result block.
  Each case is run once on whole staging buffers: the query block and the bank block are read and left as found.
-/
import proofs.«121708_g34351148433420_cont_8to1_b_51_5_alg».proof.Proof.Gen.Kernel.Launch
import proofs.«121708_g34351148433420_cont_8to1_b_51_5_alg».proof.Proof.Gen.Kernel.Skeleton
import proofs.«121708_g34351148433420_cont_8to1_b_51_5_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset is taken exactly at grid coordinate 0, -/
abbrev condFirst (i : grid0.Coords) : Prop :=
  (Scalar.cmpi .ne (Scalar.extui (Scalar.cmpi .eq (BitVec.ofNat 32 (i 0).val) 0#32)) 0#32) = 1#1
/-- and the quotient is written exactly at grid coordinate 49. -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 49 :=
  (by decide +kernel : ∀ t : Fin grid0.N, condLast (grid0.coords t) ↔ t.val = 49)

/-- The whole-buffer rectangles the body loads and stores through. -/
abbrev rA : Rect S1024x16 := Rect.unit (s := S1024x16) ![0, 0] S1024x16.size inb_S1024x16_S1024x16_0_0
abbrev rD : Rect S1024x1 := Rect.unit (s := S1024x1) ![0, 0] S1024x1.size inb_S1024x1_S1024x1_0_0
abbrev rG : Rect S2000x16 := Rect.unit (s := S2000x16) ![0, 0] S2000x16.size inb_S2000x16_S2000x16_0_0

theorem zero2 : (![0, 0] : Fin 2 → Nat) = fun _ => 0 := by
  funext a; match a with | ⟨0, _⟩ => rfl | ⟨1, _⟩ => rfl

/-- The one store through the whole-buffer rectangle, read back, is the stored value. -/
theorem read_store_one {d : Fin 2 → Nat} (v : View sig .tc .vmem ⟨2, d⟩ .f32) (f : v.ty.Contents (Elt F))
    (inb : ∀ a, (![0, 0] : Fin 2 → Nat) a + (⟨2, d⟩ : Shape).size a ≤ (⟨2, d⟩ : Shape).size a) (w : (⟨2, d⟩ : Shape).Idx → Elt F .f32) :
    v.read (Elt F) (v.writes (Elt F) f [⟨Rect.unit (s := ⟨2, d⟩) ![0, 0] (⟨2, d⟩ : Shape).size inb, w⟩]) = w := by
  rw [View.read_writes_eq_canon _ _ _ (fun y => ⟨_, List.mem_singleton_self _, View.mem_set_unit_zero zero2 inb y⟩),
    View.canon_unit_zero zero2]

/-- Of two stores through the whole-buffer rectangle the later one is what is read back. -/
theorem read_store_two {d : Fin 2 → Nat} (v : View sig .tc .vmem ⟨2, d⟩ .f32) (f : v.ty.Contents (Elt F))
    (inb inb' : ∀ a, (![0, 0] : Fin 2 → Nat) a + (⟨2, d⟩ : Shape).size a ≤ (⟨2, d⟩ : Shape).size a)
    (w w' : (⟨2, d⟩ : Shape).Idx → Elt F .f32) :
    v.read (Elt F) (v.writes (Elt F) f [⟨Rect.unit (s := ⟨2, d⟩) ![0, 0] (⟨2, d⟩ : Shape).size inb, w⟩,
      ⟨Rect.unit (s := ⟨2, d⟩) ![0, 0] (⟨2, d⟩ : Shape).size inb', w'⟩]) = w := by
  rw [View.read_writes_eq_canon _ _ _ (fun y => ⟨_, List.mem_cons_self, View.mem_set_unit_zero zero2 inb y⟩),
    View.canon_cons_unit_zero zero2]

/-- A load through the whole-buffer rectangle of a whole memref reads its contents. -/
theorem load_whole {d : Fin 2 → Nat} (m : Memref sig .tc .vmem ⟨2, d⟩ .f32) (hm : m.IsWhole)
    (inb : ∀ a, (![0, 0] : Fin 2 → Nat) a + (⟨2, d⟩ : Shape).size a ≤ (⟨2, d⟩ : Shape).size a) (X : (⟨2, d⟩ : Shape).Idx → Elt F .f32) :
    View.readAt (Elt F) m.view (Rect.unit (s := ⟨2, d⟩) ![0, 0] (⟨2, d⟩ : Shape).size inb).toLoadRect (hm.unread X) = X := by
  rw [View.readAt_eq_ld, hm.read_unread, View.ld_unit_zero zero2]

set_option maxHeartbeats 4000000 in
/-- A middle point: both sums found at `a`, `s` and left at the point's update of them; the result block is not touched. -/
theorem run_mid (c : Dev nD) (E : Set ℕ) (i : grid0.Coords)
    (arg1 : Memref sig .tc .vmem S1024x16 .f32) (harg1 : arg1.IsWhole) (arg2 : Memref sig .tc .vmem S2000x16 .f32) (harg2 : arg2.IsWhole)
    (arg3 : Memref sig .tc .vmem S1024x16 .f32) (harg3 : arg3.IsWhole) (arg4 : Memref sig .tc .vmem S1024x16 .f32) (harg4 : arg4.IsWhole)
    (arg5 : Memref sig .tc .vmem S1024x1 .f32) (harg5 : arg5.IsWhole)
    (hf : ¬condFirst i) (hl : ¬condLast i)
    (x : Vec F S1024x16 .f32) (g : Vec F S2000x16 .f32) (a : Vec F S1024x16 .f32) (s : Vec F S1024x1 .f32) (K : PUnit → sProp 𝕄) :
    iprop(owns (c : Thread nD τ) arg1 fullShare x ∗ owns (c : Thread nD τ) arg2 fullShare g
        ∗ owns (c : Thread nD τ) arg4 fullShare a ∗ owns (c : Thread nD τ) arg5 fullShare s
        ∗ (iprop(owns (c : Thread nD τ) arg1 fullShare x ∗ owns (c : Thread nD τ) arg2 fullShare g
            ∗ owns (c : Thread nD τ) arg4 fullShare (k0_pay5 x g a) ∗ owns (c : Thread nD τ) arg5 fullShare (k0_pay6 x g s)) -∗ K ⟨⟩))
      ⊢ wp frame (wpE (defs₀ (F := F)) Variants.none c none) E (cc0__attn_body i arg1 harg1 arg2 harg2 arg3 harg3 arg4 harg4 arg5 harg5) K := by
  simp only [cc0__attn_body_eq_skeleton]; unfold cc0__attn_body_skel
  unfold owns
  iintro ⟨⟨%f1, %hf1, H1⟩, ⟨%f2, %hf2, H2⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H4]
  · iexists _; isplitr
    swap; · iexact H4
    ipureintro
    rw [read_store_one, load_whole, load_whole, load_whole]
  iexists _; isplitr
  swap; · iexact H5
  ipureintro
  sl_unfold_run_names
  rw [read_store_one, load_whole, load_whole, load_whole]

set_option maxHeartbeats 4000000 in
/-- The first point: both sums, found at anything, are reset to zero and left at the point's update of zero. -/
theorem run_first (c : Dev nD) (E : Set ℕ) (i : grid0.Coords)
    (arg1 : Memref sig .tc .vmem S1024x16 .f32) (harg1 : arg1.IsWhole) (arg2 : Memref sig .tc .vmem S2000x16 .f32) (harg2 : arg2.IsWhole)
    (arg3 : Memref sig .tc .vmem S1024x16 .f32) (harg3 : arg3.IsWhole) (arg4 : Memref sig .tc .vmem S1024x16 .f32) (harg4 : arg4.IsWhole)
    (arg5 : Memref sig .tc .vmem S1024x1 .f32) (harg5 : arg5.IsWhole)
    (hf : condFirst i) (hl : ¬condLast i)
    (x : Vec F S1024x16 .f32) (g : Vec F S2000x16 .f32) (a : Vec F S1024x16 .f32) (s : Vec F S1024x1 .f32) (K : PUnit → sProp 𝕄) :
    iprop(owns (c : Thread nD τ) arg1 fullShare x ∗ owns (c : Thread nD τ) arg2 fullShare g
        ∗ owns (c : Thread nD τ) arg4 fullShare a ∗ owns (c : Thread nD τ) arg5 fullShare s
        ∗ (iprop(owns (c : Thread nD τ) arg1 fullShare x ∗ owns (c : Thread nD τ) arg2 fullShare g
            ∗ owns (c : Thread nD τ) arg4 fullShare (k0_pay5 x g (k0_pay2 (F := F))) ∗ owns (c : Thread nD τ) arg5 fullShare (k0_pay6 x g (k0_pay3 (F := F)))) -∗ K ⟨⟩))
      ⊢ wp frame (wpE (defs₀ (F := F)) Variants.none c none) E (cc0__attn_body i arg1 harg1 arg2 harg2 arg3 harg3 arg4 harg4 arg5 harg5) K := by
  simp only [cc0__attn_body_eq_skeleton]; unfold cc0__attn_body_skel
  unfold owns
  iintro ⟨⟨%f1, %hf1, H1⟩, ⟨%f2, %hf2, H2⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H4]
  · iexists _; isplitr
    swap; · iexact H4
    ipureintro
    sl_unfold_run_names
    rw [read_store_two, load_whole, load_whole, View.readCov_unit_zero (S := S1024x16) _ zero2]
  iexists _; isplitr
  swap; · iexact H5
  ipureintro
  sl_unfold_run_names
  rw [read_store_two, load_whole, load_whole, View.readCov_unit_zero (S := S1024x1) _ zero2]

set_option maxHeartbeats 4000000 in
/-- The last point: both sums updated as at a middle point, then their quotient stored into the result block. -/
theorem run_last (c : Dev nD) (E : Set ℕ) (i : grid0.Coords)
    (arg1 : Memref sig .tc .vmem S1024x16 .f32) (harg1 : arg1.IsWhole) (arg2 : Memref sig .tc .vmem S2000x16 .f32) (harg2 : arg2.IsWhole)
    (arg3 : Memref sig .tc .vmem S1024x16 .f32) (harg3 : arg3.IsWhole) (arg4 : Memref sig .tc .vmem S1024x16 .f32) (harg4 : arg4.IsWhole)
    (arg5 : Memref sig .tc .vmem S1024x1 .f32) (harg5 : arg5.IsWhole)
    (hf : ¬condFirst i) (hl : condLast i)
    (x : Vec F S1024x16 .f32) (g : Vec F S2000x16 .f32) (o : Vec F S1024x16 .f32) (a : Vec F S1024x16 .f32) (s : Vec F S1024x1 .f32) (K : PUnit → sProp 𝕄) :
    iprop(owns (c : Thread nD τ) arg1 fullShare x ∗ owns (c : Thread nD τ) arg2 fullShare g ∗ owns (c : Thread nD τ) arg3 fullShare o
        ∗ owns (c : Thread nD τ) arg4 fullShare a ∗ owns (c : Thread nD τ) arg5 fullShare s
        ∗ (iprop(owns (c : Thread nD τ) arg1 fullShare x ∗ owns (c : Thread nD τ) arg2 fullShare g
            ∗ owns (c : Thread nD τ) arg3 fullShare (k0_pay1 (k0_pay5 x g a) (k0_pay6 x g s))
            ∗ owns (c : Thread nD τ) arg4 fullShare (k0_pay5 x g a) ∗ owns (c : Thread nD τ) arg5 fullShare (k0_pay6 x g s)) -∗ K ⟨⟩))
      ⊢ wp frame (wpE (defs₀ (F := F)) Variants.none c none) E (cc0__attn_body i arg1 harg1 arg2 harg2 arg3 harg3 arg4 harg4 arg5 harg5) K := by
  simp only [cc0__attn_body_eq_skeleton]; unfold cc0__attn_body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    rw [read_store_one, View.readCov_unit_zero (S := S1024x16) _ zero2, View.readCov_unit_zero (S := S1024x1) _ zero2,
      load_whole, load_whole, load_whole, load_whole]
  isplitl [H4]
  · iexists _; isplitr
    swap; · iexact H4
    ipureintro
    sl_unfold_run_names
    rw [read_store_one, load_whole, load_whole, load_whole]
  iexists _; isplitr
  swap; · iexact H5
  ipureintro
  sl_unfold_run_names
  rw [read_store_one, load_whole, load_whole, load_whole]

end Cert.Kernel.Hand

end
-- ==== Proof.K.Dat0.lean ====
/-
  The first kernel's region, point by point. The query window is the whole query at every point; the bank window's
  block at point t is rows 2000·t … 2000·t + 1999; the result window is written by the body at the last point only and
  written back there. Between points the two scratch buffers hold the running sums after the point before: that is
  the region's invariant. After the region the result array holds the quotient of the two sums after the last point.
-/
import proofs.«121708_g34351148433420_cont_8to1_b_51_5_alg».proof.Proof.K.Acc
import proofs.«121708_g34351148433420_cont_8to1_b_51_5_alg».proof.Proof.K.Body0
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block indices over the grid: the query's block is always block (0, 0); the bank's is block (t, 0). -/
theorem index0_0 : ∀ t : Fin cfg0.N, win0_0.index t 0 = 0 ∧ win0_0.index t 1 = 0 :=
  (by decide +kernel : ∀ t : Fin grid0.N, win0_0.index t 0 = 0 ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)

/-- The query window's block is the whole query array. -/
theorem iblk0_query (c : Dev nD) (t : Fin cfg0.N) : (iblk0 V c 0 t : Vec F S1024x16 .f32) = V c main_arg0 := by
  funext y
  unfold iblk0
  rw [View.read_apply]
  show V c main_arg0 _ = V c main_arg0 y
  congr 1
  funext a
  apply Fin.ext
  match a with
  | ⟨0, _⟩ => show win0_0.index t 0 * 1024 + 1 * (y 0).val = (y 0).val; rw [(index0_0 t).1]; omega
  | ⟨1, _⟩ => show win0_0.index t 1 * 16 + 1 * (y 1).val = (y 1).val; rw [(index0_0 t).2]; omega

/-- Entry (k, j) of the bank window's block at point t is entry (2000·t + k, j) of the bank. -/
theorem iblk0_bank (c : Dev nD) (t : Fin cfg0.N) (y : S2000x16.Idx) (i : S100000x16.Idx)
    (h0 : (i 0).val = 2000 * t.val + (y 0).val) (h1 : (i 1).val = (y 1).val) :
    (iblk0 V c 1 t : Vec F S2000x16 .f32) y = (V c main_arg1 : S100000x16.Idx → Elt F .f32) i := by
  unfold iblk0
  rw [View.read_apply]
  show V c main_arg1 _ = V c main_arg1 i
  congr 1
  funext a
  apply Fin.ext
  match a with
  | ⟨0, _⟩ => show win0_1.index t 0 * 2000 + 1 * (y 0).val = (i 0).val; rw [(index0_1 t).1, h0]; omega
  | ⟨1, _⟩ => show win0_1.index t 1 * 16 + 1 * (y 1).val = (i 1).val; rw [(index0_1 t).2, h1]; omega

theorem pos50 : 0 < cfg0.N := by
  rw [show cfg0.N = 50 from N_0]; omega

/-- The bank's blocks numbered by the natural numbers (past the grid: block 0 again; never consulted). -/
def gbAt (c : Dev nD) (n : ℕ) : Vec F S2000x16 .f32 :=
  if h : n < cfg0.N then iblk0 V c 1 ⟨n, h⟩ else iblk0 V c 1 ⟨0, pos50⟩

theorem gbAt_val (c : Dev nD) (t : Fin cfg0.N) : gbAt V c t.val = iblk0 V c 1 t := by
  unfold gbAt
  rw [dif_pos t.isLt]

/-- The two running sums after point `n`. -/
def scAt (c : Dev nD) (n : ℕ) : Vec F S1024x16 .f32 × Vec F S1024x1 .f32 := accAt (V c main_arg0) (gbAt V c) n

theorem scAt_first (c : Dev nD) (t : Fin cfg0.N) (h : t.val = 0) :
    scAt V c t.val = (k0_pay5 (iblk0 V c 0 t) (iblk0 V c 1 t) (k0_pay2 (F := F)), k0_pay6 (iblk0 V c 0 t) (iblk0 V c 1 t) (k0_pay3 (F := F))) := by
  rw [iblk0_query, ← gbAt_val, h]; rfl

theorem scAt_later (c : Dev nD) (t : Fin cfg0.N) (h : t.val ≠ 0) :
    scAt V c t.val = (k0_pay5 (iblk0 V c 0 t) (iblk0 V c 1 t) (scAt V c (t.val - 1)).1, k0_pay6 (iblk0 V c 0 t) (iblk0 V c 1 t) (scAt V c (t.val - 1)).2) := by
  rw [iblk0_query, ← gbAt_val]
  obtain ⟨n, hn⟩ : ∃ n, t.val = n + 1 := ⟨t.val - 1, by omega⟩
  rw [hn]; rfl

/-! ## The invariant -/

/-- The two scratch buffers, as memrefs. -/
abbrev scM0 : Memref sig .tc .vmem S1024x16 .f32 := Memref.whole cc0_scratch0
abbrev scM1 : Memref sig .tc .vmem S1024x1 .f32 := Memref.whole cc0_scratch1

/-- The scoped buffers this region neither stages nor uses: the second region's two staging buffers, at anything. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f))

/-- What the region is entered with, the scratch buffers as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ restS c) ∗ (∃ r, prngReg c r)) := by
  unfold Pipeline.ΦA restS; rw [scopedRest0_eq]; simp only [scM0, scM1, owns_whole]; rfl

/-- The invariant before point `n`: before the first point what the region is entered with; afterwards the two scratch
    buffers at the running sums after the point before. -/
def PhiS (c : Dev nD) : ℕ → sProp 𝕄
  | 0 => Pipeline.ΦA spec0 c
  | n + 1 => iprop((owns (c : Thread nD τ) scM0 fullShare (scAt V c n).1 ∗ owns (c : Thread nD τ) scM1 fullShare (scAt V c n).2 ∗ restS c)
      ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop((owns (c : Thread nD τ) scM0 fullShare (scAt V c n).1 ∗ owns (c : Thread nD τ) scM1 fullShare (scAt V c n).2 ∗ restS c)
      ∗ (∃ r, prngReg c r)) := rfl
theorem PhiS_pos (c : Dev nD) (n : ℕ) (hz : n ≠ 0) :
    PhiS V c n = iprop((owns (c : Thread nD τ) scM0 fullShare (scAt V c (n - 1)).1 ∗ owns (c : Thread nD τ) scM1 fullShare (scAt V c (n - 1)).2 ∗ restS c)
      ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (scAt V c t.val).1 (scAt V c t.val).2
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (scAt V c t.val).1 (scAt V c t.val).2 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## Where the result window is idle -/

theorem live0_0 : ∀ t : Fin cfg0.N, cfg0.idle 0 (grid0.coords t) = false := fun _ => rfl
theorem live0_1 : ∀ t : Fin cfg0.N, cfg0.idle 1 (grid0.coords t) = false := fun _ => rfl
theorem idle0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem live0_2 : ∀ t : Fin cfg0.N, condLast (grid0.coords t) → cfg0.idle 2 (grid0.coords t) = false := by decide +kernel

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem Phi_castSucc (c : Dev nD) (t : Fin cfg0.N) : (dat0 V c).Φ t.castSucc = PhiS V c t.val := by
  dsimp only [dat0]; simp only [Fin.coe_castSucc]

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl,
    show (dat0 V c).Φ t.succ = PhiS V c (t.val + 1) from rfl, PhiS_succ, Phi_castSucc,
    show (dat0 V c).leavesExact 0 t = owns (c : Thread nD τ) (st0_0 t) fullShare ((dat0 V c).after 0 t) from by
      unfold Dat.leavesExact; rw [live0_0 t],
    show (dat0 V c).leavesExact 1 t = owns (c : Thread nD τ) (st0_1 t) fullShare ((dat0 V c).after 1 t) from by
      unfold Dat.leavesExact; rw [live0_1 t],
    after0_0, after0_1]
  have hN : t.val < 50 := lt_of_lt_of_eq t.isLt (show cfg0.N = 50 from N_0)
  by_cases h0 : t.val = 0
  · have hl : ¬condLast (grid0.coords t) := fun h => by have := (hcondLast t).mp h; omega
    rw [Dat.leavesExact_idle (dat0 V c) 2 t (idle0_2 t hl) (noFlush0_2 t hl), PhiS_zero V c _ h0, PhiA0_eq, scAt_first V c t h0]
    iintro ⟨⟨⟨⟨%a, HS0⟩, ⟨%s, HS1⟩, Hrest⟩, Hg⟩, Ho, ⟨%d0, H0⟩, ⟨%d1, H1⟩, H2⟩
    iapply (run_first c Set.univ (grid0.coords t) _ _ _ _ _ _ _ _ _ _ ((hcondFirst t).mpr h0) hl (iblk0 V c 0 t) (iblk0 V c 1 t) a s _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitr [Hg]
      · isplitl [HS0]; · iexact HS0
        isplitl [HS1]; · iexact HS1
        iexact Hrest
      iexact Hg
    isplitl [Ho]; · iexact Ho
    isplitl [H0]; · iexact H0
    isplitl [H1]; · iexact H1
    iexact H2
  · have hf : ¬condFirst (grid0.coords t) := fun h => h0 ((hcondFirst t).mp h)
    rw [PhiS_pos V c _ h0, scAt_later V c t h0]
    by_cases h49 : t.val = 49
    · have hl : condLast (grid0.coords t) := (hcondLast t).mpr h49
      rw [show (dat0 V c).leavesExact 2 t = owns (c : Thread nD τ) (st0_2 t) fullShare ((dat0 V c).after 2 t) from by
        unfold Dat.leavesExact; rw [live0_2 t hl], after0_2, scAt_later V c t h0]
      iintro ⟨⟨⟨HS0, HS1, Hrest⟩, Hg⟩, Ho, ⟨%d0, H0⟩, ⟨%d1, H1⟩, ⟨%d2, H2⟩⟩
      iapply (run_last c Set.univ (grid0.coords t) _ _ _ _ _ _ _ _ _ _ hf hl (iblk0 V c 0 t) (iblk0 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      iexact H2
    · have hl : ¬condLast (grid0.coords t) := fun h => h49 ((hcondLast t).mp h)
      rw [Dat.leavesExact_idle (dat0 V c) 2 t (idle0_2 t hl) (noFlush0_2 t hl)]
      iintro ⟨⟨⟨HS0, HS1, Hrest⟩, Hg⟩, Ho, ⟨%d0, H0⟩, ⟨%d1, H1⟩, H2⟩
      iapply (run_mid c Set.univ (grid0.coords t) _ _ _ _ _ _ _ _ _ _ hf hl (iblk0 V c 0 t) (iblk0 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point, -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- and after the last point the invariant gives it back, the sums' names forgotten. -/
theorem hout0 (c : Dev nD) : (dat0 V c).Φ (Fin.last cfg0.N) ⊢ Pipeline.ΦA spec0 c := by
  have hN : cfg0.N = 50 := N_0
  rw [show (dat0 V c).Φ (Fin.last cfg0.N) = PhiS V c cfg0.N from rfl, PhiS_pos V c _ (by omega), PhiA0_eq]
  iintro ⟨⟨HS0, HS1, Hrest⟩, Hg⟩
  isplitr [Hg]
  · isplitl [HS0]; · iexists _; iexact HS0
    isplitl [HS1]; · iexists _; iexact HS1
    iexact Hrest
  iexact Hg

end Cert.Kernel.Hand

end
-- ==== Proof.K.Reg1.lean ====
/-
  The second kernel's region (no grid: one point, both windows the whole 100 × 1000 array): the body loads its
  input, computes the shifted softmax of all its entries and stores it whole into its output.
-/
import proofs.«121708_g34351148433420_cont_8to1_b_51_5_alg».proof.Proof.Gen.Kernel.Launch
import proofs.«121708_g34351148433420_cont_8to1_b_51_5_alg».proof.Proof.Gen.Kernel.Skeleton
import proofs.«121708_g34351148433420_cont_8to1_b_51_5_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at the point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-! ## The body's whole-buffer accesses -/

/-- The offsets of the body's accesses are zero on both axes. -/
theorem offsets_zero : (![0, 0] : Fin S100x1000.rank → Nat) = fun _ => 0 :=
  funext fun a => by
    match a with
    | ⟨0, _⟩ => rfl
    | ⟨1, _⟩ => rfl

/-- The rectangle of the body's loads and of its store: all 100 × 1000 entries of a staging buffer. -/
abbrev allEntries : Rect S100x1000 := Rect.unit (s := S100x1000) ![0, 0] S100x1000.size inb_S100x1000_S100x1000_0_0

/-- The body's single store reaches every entry of the output's staging buffer. -/
theorem store_reaches_all (p : Vec F S100x1000 .f32) (y : S100x1000.Idx) :
    ∃ pc ∈ ([⟨allEntries, p⟩] : List (View.Piece (Elt F) S100x1000 .f32)), y ∈ pc.1.set :=
  ⟨_, List.mem_singleton_self _, View.mem_set_unit_zero offsets_zero inb_S100x1000_S100x1000_0_0 y⟩

/-- A buffer stored into over all its entries reads back the stored value, whatever it held. -/
theorem read_after_store_all {κ : Kind} {sp : Space} (v : View sig κ sp S100x1000 .f32) (f : v.ty.Contents (Elt F))
    (p : Vec F S100x1000 .f32) :
    v.read (Elt F) (v.writes (Elt F) f [⟨allEntries, p⟩]) = p := by
  rw [View.read_writes_eq_canon _ _ _ (store_reaches_all p), View.canon_unit_zero offsets_zero]

/-- A load of all the entries of a buffer reads its contents. -/
theorem load_all {κ : Kind} {sp : Space} (v : View sig κ sp S100x1000 .f32) (f : v.ty.Contents (Elt F)) :
    v.readAt (Elt F) allEntries.toLoadRect f = v.read (Elt F) f := by
  rw [View.readAt_eq_ld, View.ld_unit_zero offsets_zero]

/-! ## The body's triple -/

set_option maxHeartbeats 1000000 in
/-- The body, run on two whole staging buffers of which the first holds `x0`, ends with the first unchanged and
    the second holding the shifted softmax `k1_pay1 x0` of all the entries of `x0`. -/
theorem gamma_body_triple (c : Dev nD) (E : Set ℕ) (arg0 : Memref sig .tc .vmem S100x1000 .f32) (harg0 : arg0.IsWhole)
    (arg1 : Memref sig .tc .vmem S100x1000 .f32) (harg1 : arg1.IsWhole) (x0 : Vec F S100x1000 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k1_pay1 x0)) -∗ K ⟨⟩))
      ⊢ wp frame (wpE (defs₀ (F := F)) Variants.none c none) E (cc1__gamma_body arg0 harg0 arg1 harg1) K := by
  simp only [cc1__gamma_body_eq_skeleton]; unfold cc1__gamma_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [read_after_store_all, load_all]

/-! ## What the body finds in the staging buffers and what it leaves there -/

/-- The body leaves the input's staging buffer as it found it, -/
theorem after_in (c : Dev nD) (t : Fin cfg1.N) : (dat1 V c).after 0 t = iblk1 V c 0 t := by dsimp only [dat1]
/-- and the output's at the shifted softmax of the input's. -/
theorem after_out (c : Dev nD) (t : Fin cfg1.N) : (dat1 V c).after 1 t = k1_pay1 (iblk1 V c 0 t) := by dsimp only [dat1]

/-- The input window is fetched at the one point, so the body finds its block in the staging buffer. -/
theorem before_in (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  try rfl

/-- What the body is called with at the point: the invariant, the core's debts, and the two staging buffers. -/
def bodyGiven (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What it hands back: the same, the buffers at what the body leaves in them. -/
def bodyGivesBack (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the input's buffer holds the block, so the triple applies; the invariant and the debts
    are not touched. -/
theorem body_at_point (c : Dev nD) (t : Fin cfg1.N) :
    bodyGiven V c t ⊢ wp frame (wpE (defs₀ (F := F)) Variants.none c none) Set.univ (bodyAt1 t) (fun _ => bodyGivesBack V c t) := by
  unfold bodyGiven bodyGivesBack bodyAt1
  simp only [before_in]
  rw [show (dat1 V c).Φ t.succ = (dat1 V c).Φ t.castSucc from rfl,
    show (dat1 V c).owesAt () t.succ = (dat1 V c).owesAt () t.castSucc from rfl,
    after_in, after_out]
  iintro ⟨HΦ, Ho, ⟨%d0, Hin⟩, ⟨%d1, Hout⟩⟩
  iapply (gamma_body_triple c Set.univ _ _ _ _ (iblk1 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

theorem body_obligation1 (c : Dev nD) : BodyObligation (dat1 (F := F) V c) (defs₀ (F := F)) Variants.none () Set.univ := fun t => by
  rw [bigSep_W1, bigSep_W1]
  exact body_at_point V c t

/-! ## The output array after the region -/

/-- The one block of either window is its whole array: its offset on each axis is block index 0 times the size. -/
theorem block_offsets_zero (w : Pipeline.Window sig grid1) (hw : ∀ i a, w.indexMap i a = 0) (t : Fin grid1.N) :
    (fun a => w.index t a * w.size a) = fun _ => 0 :=
  funext fun a => by show w.indexMap (grid1.coords t) a * w.size a = 0; rw [hw, Nat.zero_mul]

/-- The input array read through the input window's block is the array. -/
theorem read_block_in (c : Dev nD) (t : Fin cfg1.N) (X : Buf (Elt F) ((c : Thread nD τ).loc main_call0_v1)) :
    ((cfg1.win 0).blk t).view.read (Elt F) X = X :=
  Memref.read_access_unit_zero (Elt F) main_call0_v1 (block_offsets_zero win1_0 (fun _ _ => rfl) t)
    (fun a => by rw [congrFun (block_offsets_zero win1_0 (fun _ _ => rfl) t) a]; exact Nat.le_of_eq (Nat.zero_add _)) X

/-- The output array read through the output window's block is the array. -/
theorem read_block_out (c : Dev nD) (t : Fin cfg1.N) (X : Buf (Elt F) ((c : Thread nD τ).loc main_call0_v2)) :
    ((cfg1.win 1).blk t).view.read (Elt F) X = X :=
  Memref.read_access_unit_zero (Elt F) main_call0_v2 (block_offsets_zero win1_1 (fun _ _ => rfl) t)
    (fun a => by rw [congrFun (block_offsets_zero win1_1 (fun _ _ => rfl) t) a]; exact Nat.le_of_eq (Nat.zero_add _)) X

/-- The input window's block at the point is the whole input array as the region finds it. -/
theorem block_in_eq (c : Dev nD) (t : Fin cfg1.N) : iblk1 V c 0 t = V c main_call0_v1 := by
  unfold iblk1
  exact read_block_in c t (V c main_call0_v1)

/-- The write-back moves all of the output's staging buffer. -/
theorem cut_out (t : Fin cfg1.N) (X : S100x1000.Idx → Elt F .f32) : (cfg1.win 1).cut (cfg1.grid.coords t) X = X := rfl

/-- What the point writes back is the output window's block of the shifted softmax of the whole input array. -/
theorem flushed_out (c : Dev nD) (t : Fin cfg1.N) :
    (dat1 V c).flushed 1 t = ((cfg1.win 1).blk t).view.read (Elt F) (k1_pay1 (V c main_call0_v1)) := by
  show (cfg1.win 1).cut (cfg1.grid.coords t) ((dat1 V c).after 1 t) = _
  rw [after_out, block_in_eq, read_block_out c]
  exact cut_out t _

/-- Every index of the output array lies in the one block. -/
theorem mem_block_out (t : Fin cfg1.N) (i : S100x1000.Idx) : i ∈ ((cfg1.win 1).blk t).view.set := by
  show i ∈ ((View.whole main_call0_v2).slice (win1_1.rect t)).set
  rw [View.set_slice_whole, Rect.mem_set_unit]
  intro a
  show win1_1.indexMap (grid1.coords t) a * S100x1000.size a ≤ (i a).val
    ∧ (i a).val < win1_1.indexMap (grid1.coords t) a * S100x1000.size a + S100x1000.size a
  rw [show win1_1.indexMap (grid1.coords t) a = 0 from rfl, Nat.zero_mul, Nat.zero_add]
  exact ⟨Nat.zero_le _, (i a).isLt⟩

/-- After the region the output array holds the body's result of the whole input array. -/
theorem arrAt1_out (c : Dev nD) : (dat1 V c).arrAt 1 cfg1.N = k1_pay1 (V c main_call0_v1) :=
  (dat1 V c).arrAt_eq_of_cover 1 (k1_pay1 (V c main_call0_v1)) (fun t _ => flushed_out V c t)
    fun i => ⟨t1_0, flush1_1 t1_0, mem_block_out t1_0 i⟩

end Cert.Kernel.Hand

end
-- ==== Proof.K.Run.lean ====
/-
  The whole program as four segments, in order: the first kernel's region, the reshape of the vector to 100 × 1000,
  the second kernel's region, the reshape back. Between two segments a core holds every unscoped buffer at the
  contents named here; a region changes only its result array, a reshape only the buffer it writes. Every weakly
  fair execution therefore ends, and at the end the two result buffers hold what the two regions left and the
  three argument arrays hold what they were launched with.
-/
import proofs.«121708_g34351148433420_cont_8to1_b_51_5_alg».proof.Proof.K.Dat0
import proofs.«121708_g34351148433420_cont_8to1_b_51_5_alg».proof.Proof.K.Reg1
import proofs.«121708_g34351148433420_cont_8to1_b_51_5_alg».proof.Proof.Gen.Kernel.Regions
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch (the first region's entry). -/
abbrev B0 : Dev nD → Valuation τ sig (Elt F) := fun c b => m (c, b)
abbrev E0 : (c : Dev nD) → (b : Ref sig .tc) → Buf (Elt F) ((c : Thread nD τ).loc b) := fun c b => B0 m c b
/-- After the first region: its arrays at what the pipeline leaves, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the first reshape (the second region's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- After the second region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)
/-- After the second reshape (the end). -/
abbrev B4 : Dev nD → Valuation τ sig (Elt F) := fun c => StableHlo.after hostOps2 (B3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m c) ∗ ∃ r, prngReg c r)

/-! ## The regions as segments -/

/-- After its last point the first region hands back its scoped buffers, at anything, and the generator register. -/
theorem scoped_back (c : Dev nD) :
    (dat0 (E0 m) c).Φ (Fin.last cfg0.N)
      ⊢ iprop(Pipeline.scopedRest (Ix := Unit) (Name := ℕ) (U := UR sig nD τ) (Lvl := ℕ) (Val := Elt F) spec0 c ∗ ∃ r, prngReg c r) := by
  have h := hout0 (E0 m) c
  unfold Pipeline.ΦA at h
  exact h

set_option backward.isDefEq.respectTransparency.types false in
/-- The first region: entered from every unscoped buffer at launch contents, left with its result array changed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (E0 m) c).Φ (Fin.last cfg0.N) ⊢ _
    have hb := scoped_back m c
    iintro H
    ihave H' := hb $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers after the first reshape, left with its result array changed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]
theorem main_run (c : Dev nD) : main (F := F) c = Pipeline.Seg.run (segs m) := (main_chain c).trans (by chain_rfl)

set_option backward.isDefEq.respectTransparency.types false in
/-- Every weakly fair execution ends, and at the end every unscoped buffer of every core holds the last boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (B4 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.Kernel.Hand

end
-- ==== Proof.K.Out.lean ====
/-
  What the two result buffers and the three argument arrays hold at the end, read back through the segment
  boundaries: a reshape writes one buffer and leaves the others, a region changes only its result array. The first
  result is what the first kernel wrote back at its last point, the quotient of its two running sums; the second is the
  second kernel's result laid out as a vector again.
-/
import proofs.«121708_g34351148433420_cont_8to1_b_51_5_alg».proof.Proof.K.Run
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first region's result array -/

section
variable (V : (c : Dev nD) → (b : Ref sig .tc) → Buf (Elt F) ((c : Thread nD τ).loc b))

theorem index0_2 : ∀ t : Fin cfg0.N, win0_2.index t 0 = 0 ∧ win0_2.index t 1 = 0 :=
  (by decide +kernel : ∀ t : Fin grid0.N, win0_2.index t 0 = 0 ∧ win0_2.index t 1 = 0)

/-- The result window's one block starts at offset zero on both axes. -/
theorem result_offsets_zero (t : Fin cfg0.N) : (fun a => win0_2.index t a * main_v0_0.ty.shape.size a) = fun _ => 0 :=
  funext fun a => by
    match a with
    | ⟨0, _⟩ => show win0_2.index t 0 * _ = 0; rw [(index0_2 t).1, Nat.zero_mul]
    | ⟨1, _⟩ => show win0_2.index t 1 * _ = 0; rw [(index0_2 t).2, Nat.zero_mul]

/-- The result array read through the result window's block is the array. -/
theorem read_block_result (c : Dev nD) (t : Fin cfg0.N) (X : Buf (Elt F) ((c : Thread nD τ).loc main_v0_0)) :
    ((cfg0.win 2).blk t).view.read (Elt F) X = X :=
  Memref.read_access_unit_zero (Elt F) main_v0_0 (result_offsets_zero t)
    (fun a => by rw [congrFun (result_offsets_zero t) a]; exact Nat.le_of_eq (Nat.zero_add _)) X

/-- The last point. -/
def tLast : Fin cfg0.N := ⟨49, by rw [show cfg0.N = 50 from N_0]; decide⟩

/-- The quotient of the two running sums after the last point. -/
def quotLast (c : Dev nD) : Vec F S1024x16 .f32 := k0_pay1 (scAt V c 49).1 (scAt V c 49).2

/-- The one write-back, at the last point, writes the quotient. -/
theorem flushed_result (c : Dev nD) (t : Fin cfg0.N) (hf : (cfg0.win 2).flush t = true) :
    (dat0 V c).flushed 2 t = ((cfg0.win 2).blk t).view.read (Elt F) (quotLast V c) := by
  have hN : t.val < 50 := lt_of_lt_of_eq t.isLt (show cfg0.N = 50 from N_0)
  have h49 : t.val = 49 := by have := (flush0_2 t).mp hf; omega
  show (cfg0.win 2).cut (grid0.coords t) ((dat0 V c).after 2 t) = _
  rw [after0_2, read_block_result c, h49]
  rfl

/-- Every index of the result array lies in the block written back at the last point. -/
theorem mem_block_result (i : S1024x16.Idx) : i ∈ ((cfg0.win 2).blk tLast).view.set := by
  show i ∈ ((View.whole main_v0_0).slice (win0_2.rect tLast)).set
  rw [View.set_slice_whole, Rect.mem_set_unit]
  intro a
  have h0 : (i 0 : Nat) < 1024 := (i 0).isLt
  have h1 : (i 1 : Nat) < 16 := (i 1).isLt
  match a with
  | ⟨0, _⟩ => show win0_2.index tLast 0 * win0_2.size 0 ≤ (i 0 : Nat) ∧ (i 0 : Nat) < win0_2.index tLast 0 * win0_2.size 0 + win0_2.xsize (grid0.coords tLast) 0
              rw [show win0_2.index tLast 0 * win0_2.size 0 = 0 from by decide +kernel, show win0_2.xsize (grid0.coords tLast) 0 = 1024 from by decide +kernel]; omega
  | ⟨1, _⟩ => show win0_2.index tLast 1 * win0_2.size 1 ≤ (i 1 : Nat) ∧ (i 1 : Nat) < win0_2.index tLast 1 * win0_2.size 1 + win0_2.xsize (grid0.coords tLast) 1
              rw [show win0_2.index tLast 1 * win0_2.size 1 = 0 from by decide +kernel, show win0_2.xsize (grid0.coords tLast) 1 = 16 from by decide +kernel]; omega

/-- After the region the result array holds the quotient. -/
theorem arrAt0_out (c : Dev nD) : (dat0 V c).arrAt 2 cfg0.N = quotLast V c :=
  (dat0 V c).arrAt_eq_of_cover 2 (quotLast V c) (flushed_result V c)
    fun i => ⟨tLast, (flush0_2 tLast).mpr rfl, mem_block_result i⟩

end

/-! ## Each buffer read back through the boundaries -/

variable (m : (ℓ : Loc nD τ sig) → Buf (Elt F) ℓ) (ρ : Dev nD → PrngReg)

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (r := main_arg0) (by decide)
    _ = B2 m c (Proc.devRef .tc main_arg0) := B3_of_ne m c main_arg0 (by decide)
    _ = B1 m c (Proc.devRef .tc main_arg0) := StableHlo.after_of_writes_sub hostOps1 _ hostOps1_writes (r := main_arg0) (by decide)
    _ = B0 m c (Proc.devRef .tc main_arg0) := (B1_arr m c 0).trans (((dat0 (E0 m) c).arrAt_in 0 rfl _).trans (A_eq0 (E0 m) c 0))
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (r := main_arg1) (by decide)
    _ = B2 m c (Proc.devRef .tc main_arg1) := B3_of_ne m c main_arg1 (by decide)
    _ = B1 m c (Proc.devRef .tc main_arg1) := StableHlo.after_of_writes_sub hostOps1 _ hostOps1_writes (r := main_arg1) (by decide)
    _ = B0 m c (Proc.devRef .tc main_arg1) := (B1_arr m c 1).trans (((dat0 (E0 m) c).arrAt_in 1 rfl _).trans (A_eq0 (E0 m) c 1))
    _ = m ((c : Thread nD τ).loc main_arg1) := rfl

theorem B1_main_arg2 (c : Dev nD) : B1 m c (Proc.devRef .tc main_arg2) = m ((c : Thread nD τ).loc main_arg2) :=
  (B1_of_ne m c main_arg2 (by decide)).trans rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := StableHlo.after_of_writes_sub hostOps2 _ hostOps2_writes (r := main_arg2) (by decide)
    _ = B2 m c (Proc.devRef .tc main_arg2) := B3_of_ne m c main_arg2 (by decide)
    _ = B1 m c (Proc.devRef .tc main_arg2) := StableHlo.after_of_writes_sub hostOps1 _ hostOps1_writes (r := main_arg2) (by decide)
    _ = m ((c : Thread nD τ).loc main_arg2) := B1_main_arg2 m c

/-- The first result buffer ends at the first region's quotient. -/
theorem B4_main_v0_0 (c : Dev nD) : B4 m c (Proc.devRef .tc main_v0_0) = quotLast (E0 m) c :=
  calc B4 m c (Proc.devRef .tc main_v0_0)
    _ = B3 m c (Proc.devRef .tc main_v0_0) := StableHlo.after_of_writes_sub hostOps2 _ hostOps2_writes (r := main_v0_0) (by decide)
    _ = B2 m c (Proc.devRef .tc main_v0_0) := B3_of_ne m c main_v0_0 (by decide)
    _ = B1 m c (Proc.devRef .tc main_v0_0) := StableHlo.after_of_writes_sub hostOps1 _ hostOps1_writes (r := main_v0_0) (by decide)
    _ = (dat0 (E0 m) c).arrAt 2 cfg0.N := B1_arr m c 2
    _ = quotLast (E0 m) c := arrAt0_out (E0 m) c

/-- The second region finds the vector laid out as 100 × 1000. -/
theorem E2_input (c : Dev nD) :
    (E2 m c main_call0_v1 : Vec F S100x1000 .f32) = shapeCast S100x1000 (m ((c : Thread nD τ).loc main_arg2)) Facts₀.shapeCasts_S100000_S100x1000 := by
  show StableHlo.after hostOps1 (B1 m c) (Proc.devRef .tc main_call0_v1) = _
  after_results
  rw [B1_main_arg2]
  rfl

/-- The second result buffer ends at the second region's result laid out as a vector. -/
theorem B4_main_v0_1 (c : Dev nD) :
    (B4 m c (Proc.devRef .tc main_v0_1) : Vec F S100000 .f32)
      = shapeCast S100000 (k1_pay1 (shapeCast S100x1000 (m ((c : Thread nD τ).loc main_arg2)) Facts₀.shapeCasts_S100000_S100x1000))
          Facts₀.shapeCasts_S100x1000_S100000 := by
  have h2 : B3 m c (Proc.devRef .tc main_call0_v2) = k1_pay1 (shapeCast S100x1000 (m ((c : Thread nD τ).loc main_arg2)) Facts₀.shapeCasts_S100000_S100x1000) :=
    (B3_arr m c 1).trans ((arrAt1_out (E2 m) c).trans (congrArg k1_pay1 (E2_input m c)))
  show StableHlo.after hostOps2 (B3 m c) (Proc.devRef .tc main_v0_1) = _
  after_results
  rw [h2]
  rfl

/-! ## The run, read -/

/-- Every weakly fair execution ends with the first result at the quotient of the two running sums after the last
    point, the second at the second kernel's result of the vector, and the three arguments as launched. -/
theorem run_all : θ_run defs (onTc (τ := τ) (main (F := F))) ⟨m, fun _ => 0, ρ⟩ (fun r => ∀ c : Dev nD,
      r.2.mem ((c.tc : Thread nD τ).loc main_v0_0) = quotLast (E0 m) c
      ∧ r.2.mem ((c.tc : Thread nD τ).loc main_v0_1)
          = shapeCast S100000 (k1_pay1 (shapeCast S100x1000 (m ((c : Thread nD τ).loc main_arg2)) Facts₀.shapeCasts_S100000_S100x1000))
              Facts₀.shapeCasts_S100x1000_S100000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0_0 (by decide))).trans (B4_main_v0_0 m c),
     (h c _ (mem_uc main_v0_1 (by decide))).trans (B4_main_v0_1 m c),
     (h c _ (mem_uc main_arg0 (by decide))).trans (B4_main_arg0 m c),
     (h c _ (mem_uc main_arg1 (by decide))).trans (B4_main_arg1 m c),
     (h c _ (mem_uc main_arg2 (by decide))).trans (B4_main_arg2 m c)⟩) (run_held m ρ)

/-- The frame: every weakly fair execution ends with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.1, (h c).2.2.2.1, (h c).2.2.2.2⟩) (run_all m ρ)

end Cert.Kernel.Hand

end
-- ==== Proof.KI.Acc.lean ====
/-
  The two running sums the first kernel keeps between grid points, as a recursion over the points.
  At point 0 both are reset to zero and the point's contribution added; at every later point the
  contribution of that point's block of the bank is added to what the point before left. The result block,
  written at the last point, is the quotient of the two.
-/
import proofs.«121708_g34351148433420_cont_8to1_b_51_5_alg».proof.Proof.Gen.KernelIdeal.Skeleton

noncomputable section

namespace Cert.KernelIdeal.Hand

open Idealize.ShloMosaic Cert.KernelIdeal Cert.KernelIdeal.Gen

variable {F : FTy → Type} [FloatOps F]

/-- The pair (weighted sum, sum of weights) after point `n`, from the query block `x` and the bank's
    blocks `gb 0, gb 1, …`. -/
def accAt (x : Vec F S1024x16 .f32) (gb : ℕ → Vec F S2000x16 .f32) : ℕ → Vec F S1024x16 .f32 × Vec F S1024x1 .f32
  | 0 => (k0_pay5 x (gb 0) (k0_pay2 (F := F)), k0_pay6 x (gb 0) (k0_pay3 (F := F)))
  | n + 1 => (k0_pay5 x (gb (n + 1)) (accAt x gb n).1, k0_pay6 x (gb (n + 1)) (accAt x gb n).2)

theorem accAt_zero (x : Vec F S1024x16 .f32) (gb : ℕ → Vec F S2000x16 .f32) :
    accAt x gb 0 = (k0_pay5 x (gb 0) (k0_pay2 (F := F)), k0_pay6 x (gb 0) (k0_pay3 (F := F))) := rfl

theorem accAt_succ (x : Vec F S1024x16 .f32) (gb : ℕ → Vec F S2000x16 .f32) (n : ℕ) :
    accAt x gb (n + 1) = (k0_pay5 x (gb (n + 1)) (accAt x gb n).1, k0_pay6 x (gb (n + 1)) (accAt x gb n).2) := rfl

/-- What the last point's quotient would be after point `n`. -/
def outAt (x : Vec F S1024x16 .f32) (gb : ℕ → Vec F S2000x16 .f32) (n : ℕ) : Vec F S1024x16 .f32 :=
  k0_pay1 (accAt x gb n).1 (accAt x gb n).2

end Cert.KernelIdeal.Hand

end
-- ==== Proof.KI.Body0.lean ====
/-
  The first kernel's body at one grid point, in its three control cases. At the first point the two running sums
  are reset to zero before the point's contribution is added; at every point the contribution of the point's block of
  the bank is added to both sums; at the last point the quotient of the two sums is stored into the result block.
  Each case is run once on whole staging buffers: the query block and the bank block are read and left as found.
-/
import proofs.«121708_g34351148433420_cont_8to1_b_51_5_alg».proof.Proof.Gen.KernelIdeal.Launch
import proofs.«121708_g34351148433420_cont_8to1_b_51_5_alg».proof.Proof.Gen.KernelIdeal.Skeleton
import proofs.«121708_g34351148433420_cont_8to1_b_51_5_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset is taken exactly at grid coordinate 0, -/
abbrev condFirst (i : grid0.Coords) : Prop :=
  (Scalar.cmpi .ne (Scalar.extui (Scalar.cmpi .eq (BitVec.ofNat 32 (i 0).val) 0#32)) 0#32) = 1#1
/-- and the quotient is written exactly at grid coordinate 49. -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 49 :=
  (by decide +kernel : ∀ t : Fin grid0.N, condLast (grid0.coords t) ↔ t.val = 49)

/-- The whole-buffer rectangles the body loads and stores through. -/
abbrev rA : Rect S1024x16 := Rect.unit (s := S1024x16) ![0, 0] S1024x16.size inb_S1024x16_S1024x16_0_0
abbrev rD : Rect S1024x1 := Rect.unit (s := S1024x1) ![0, 0] S1024x1.size inb_S1024x1_S1024x1_0_0
abbrev rG : Rect S2000x16 := Rect.unit (s := S2000x16) ![0, 0] S2000x16.size inb_S2000x16_S2000x16_0_0

theorem zero2 : (![0, 0] : Fin 2 → Nat) = fun _ => 0 := by
  funext a; match a with | ⟨0, _⟩ => rfl | ⟨1, _⟩ => rfl

/-- The one store through the whole-buffer rectangle, read back, is the stored value. -/
theorem read_store_one {d : Fin 2 → Nat} (v : View sig .tc .vmem ⟨2, d⟩ .f32) (f : v.ty.Contents (Elt F))
    (inb : ∀ a, (![0, 0] : Fin 2 → Nat) a + (⟨2, d⟩ : Shape).size a ≤ (⟨2, d⟩ : Shape).size a) (w : (⟨2, d⟩ : Shape).Idx → Elt F .f32) :
    v.read (Elt F) (v.writes (Elt F) f [⟨Rect.unit (s := ⟨2, d⟩) ![0, 0] (⟨2, d⟩ : Shape).size inb, w⟩]) = w := by
  rw [View.read_writes_eq_canon _ _ _ (fun y => ⟨_, List.mem_singleton_self _, View.mem_set_unit_zero zero2 inb y⟩),
    View.canon_unit_zero zero2]

/-- Of two stores through the whole-buffer rectangle the later one is what is read back. -/
theorem read_store_two {d : Fin 2 → Nat} (v : View sig .tc .vmem ⟨2, d⟩ .f32) (f : v.ty.Contents (Elt F))
    (inb inb' : ∀ a, (![0, 0] : Fin 2 → Nat) a + (⟨2, d⟩ : Shape).size a ≤ (⟨2, d⟩ : Shape).size a)
    (w w' : (⟨2, d⟩ : Shape).Idx → Elt F .f32) :
    v.read (Elt F) (v.writes (Elt F) f [⟨Rect.unit (s := ⟨2, d⟩) ![0, 0] (⟨2, d⟩ : Shape).size inb, w⟩,
      ⟨Rect.unit (s := ⟨2, d⟩) ![0, 0] (⟨2, d⟩ : Shape).size inb', w'⟩]) = w := by
  rw [View.read_writes_eq_canon _ _ _ (fun y => ⟨_, List.mem_cons_self, View.mem_set_unit_zero zero2 inb y⟩),
    View.canon_cons_unit_zero zero2]

/-- A load through the whole-buffer rectangle of a whole memref reads its contents. -/
theorem load_whole {d : Fin 2 → Nat} (m : Memref sig .tc .vmem ⟨2, d⟩ .f32) (hm : m.IsWhole)
    (inb : ∀ a, (![0, 0] : Fin 2 → Nat) a + (⟨2, d⟩ : Shape).size a ≤ (⟨2, d⟩ : Shape).size a) (X : (⟨2, d⟩ : Shape).Idx → Elt F .f32) :
    View.readAt (Elt F) m.view (Rect.unit (s := ⟨2, d⟩) ![0, 0] (⟨2, d⟩ : Shape).size inb).toLoadRect (hm.unread X) = X := by
  rw [View.readAt_eq_ld, hm.read_unread, View.ld_unit_zero zero2]

set_option maxHeartbeats 4000000 in
/-- A middle point: both sums found at `a`, `s` and left at the point's update of them; the result block is not touched. -/
theorem run_mid (c : Dev nD) (E : Set ℕ) (i : grid0.Coords)
    (arg1 : Memref sig .tc .vmem S1024x16 .f32) (harg1 : arg1.IsWhole) (arg2 : Memref sig .tc .vmem S2000x16 .f32) (harg2 : arg2.IsWhole)
    (arg3 : Memref sig .tc .vmem S1024x16 .f32) (harg3 : arg3.IsWhole) (arg4 : Memref sig .tc .vmem S1024x16 .f32) (harg4 : arg4.IsWhole)
    (arg5 : Memref sig .tc .vmem S1024x1 .f32) (harg5 : arg5.IsWhole)
    (hf : ¬condFirst i) (hl : ¬condLast i)
    (x : Vec F S1024x16 .f32) (g : Vec F S2000x16 .f32) (a : Vec F S1024x16 .f32) (s : Vec F S1024x1 .f32) (K : PUnit → sProp 𝕄) :
    iprop(owns (c : Thread nD τ) arg1 fullShare x ∗ owns (c : Thread nD τ) arg2 fullShare g
        ∗ owns (c : Thread nD τ) arg4 fullShare a ∗ owns (c : Thread nD τ) arg5 fullShare s
        ∗ (iprop(owns (c : Thread nD τ) arg1 fullShare x ∗ owns (c : Thread nD τ) arg2 fullShare g
            ∗ owns (c : Thread nD τ) arg4 fullShare (k0_pay5 x g a) ∗ owns (c : Thread nD τ) arg5 fullShare (k0_pay6 x g s)) -∗ K ⟨⟩))
      ⊢ wp frame (wpE (defs₀ (F := F)) Variants.none c none) E (cc0__attn_body i arg1 harg1 arg2 harg2 arg3 harg3 arg4 harg4 arg5 harg5) K := by
  simp only [cc0__attn_body_eq_skeleton]; unfold cc0__attn_body_skel
  unfold owns
  iintro ⟨⟨%f1, %hf1, H1⟩, ⟨%f2, %hf2, H2⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H4]
  · iexists _; isplitr
    swap; · iexact H4
    ipureintro
    rw [read_store_one, load_whole, load_whole, load_whole]
  iexists _; isplitr
  swap; · iexact H5
  ipureintro
  sl_unfold_run_names
  rw [read_store_one, load_whole, load_whole, load_whole]

set_option maxHeartbeats 4000000 in
/-- The first point: both sums, found at anything, are reset to zero and left at the point's update of zero. -/
theorem run_first (c : Dev nD) (E : Set ℕ) (i : grid0.Coords)
    (arg1 : Memref sig .tc .vmem S1024x16 .f32) (harg1 : arg1.IsWhole) (arg2 : Memref sig .tc .vmem S2000x16 .f32) (harg2 : arg2.IsWhole)
    (arg3 : Memref sig .tc .vmem S1024x16 .f32) (harg3 : arg3.IsWhole) (arg4 : Memref sig .tc .vmem S1024x16 .f32) (harg4 : arg4.IsWhole)
    (arg5 : Memref sig .tc .vmem S1024x1 .f32) (harg5 : arg5.IsWhole)
    (hf : condFirst i) (hl : ¬condLast i)
    (x : Vec F S1024x16 .f32) (g : Vec F S2000x16 .f32) (a : Vec F S1024x16 .f32) (s : Vec F S1024x1 .f32) (K : PUnit → sProp 𝕄) :
    iprop(owns (c : Thread nD τ) arg1 fullShare x ∗ owns (c : Thread nD τ) arg2 fullShare g
        ∗ owns (c : Thread nD τ) arg4 fullShare a ∗ owns (c : Thread nD τ) arg5 fullShare s
        ∗ (iprop(owns (c : Thread nD τ) arg1 fullShare x ∗ owns (c : Thread nD τ) arg2 fullShare g
            ∗ owns (c : Thread nD τ) arg4 fullShare (k0_pay5 x g (k0_pay2 (F := F))) ∗ owns (c : Thread nD τ) arg5 fullShare (k0_pay6 x g (k0_pay3 (F := F)))) -∗ K ⟨⟩))
      ⊢ wp frame (wpE (defs₀ (F := F)) Variants.none c none) E (cc0__attn_body i arg1 harg1 arg2 harg2 arg3 harg3 arg4 harg4 arg5 harg5) K := by
  simp only [cc0__attn_body_eq_skeleton]; unfold cc0__attn_body_skel
  unfold owns
  iintro ⟨⟨%f1, %hf1, H1⟩, ⟨%f2, %hf2, H2⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H4]
  · iexists _; isplitr
    swap; · iexact H4
    ipureintro
    sl_unfold_run_names
    rw [read_store_two, load_whole, load_whole, View.readCov_unit_zero (S := S1024x16) _ zero2]
  iexists _; isplitr
  swap; · iexact H5
  ipureintro
  sl_unfold_run_names
  rw [read_store_two, load_whole, load_whole, View.readCov_unit_zero (S := S1024x1) _ zero2]

set_option maxHeartbeats 4000000 in
/-- The last point: both sums updated as at a middle point, then their quotient stored into the result block. -/
theorem run_last (c : Dev nD) (E : Set ℕ) (i : grid0.Coords)
    (arg1 : Memref sig .tc .vmem S1024x16 .f32) (harg1 : arg1.IsWhole) (arg2 : Memref sig .tc .vmem S2000x16 .f32) (harg2 : arg2.IsWhole)
    (arg3 : Memref sig .tc .vmem S1024x16 .f32) (harg3 : arg3.IsWhole) (arg4 : Memref sig .tc .vmem S1024x16 .f32) (harg4 : arg4.IsWhole)
    (arg5 : Memref sig .tc .vmem S1024x1 .f32) (harg5 : arg5.IsWhole)
    (hf : ¬condFirst i) (hl : condLast i)
    (x : Vec F S1024x16 .f32) (g : Vec F S2000x16 .f32) (o : Vec F S1024x16 .f32) (a : Vec F S1024x16 .f32) (s : Vec F S1024x1 .f32) (K : PUnit → sProp 𝕄) :
    iprop(owns (c : Thread nD τ) arg1 fullShare x ∗ owns (c : Thread nD τ) arg2 fullShare g ∗ owns (c : Thread nD τ) arg3 fullShare o
        ∗ owns (c : Thread nD τ) arg4 fullShare a ∗ owns (c : Thread nD τ) arg5 fullShare s
        ∗ (iprop(owns (c : Thread nD τ) arg1 fullShare x ∗ owns (c : Thread nD τ) arg2 fullShare g
            ∗ owns (c : Thread nD τ) arg3 fullShare (k0_pay1 (k0_pay5 x g a) (k0_pay6 x g s))
            ∗ owns (c : Thread nD τ) arg4 fullShare (k0_pay5 x g a) ∗ owns (c : Thread nD τ) arg5 fullShare (k0_pay6 x g s)) -∗ K ⟨⟩))
      ⊢ wp frame (wpE (defs₀ (F := F)) Variants.none c none) E (cc0__attn_body i arg1 harg1 arg2 harg2 arg3 harg3 arg4 harg4 arg5 harg5) K := by
  simp only [cc0__attn_body_eq_skeleton]; unfold cc0__attn_body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hf | exact hl)
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    rw [read_store_one, View.readCov_unit_zero (S := S1024x16) _ zero2, View.readCov_unit_zero (S := S1024x1) _ zero2,
      load_whole, load_whole, load_whole, load_whole]
  isplitl [H4]
  · iexists _; isplitr
    swap; · iexact H4
    ipureintro
    sl_unfold_run_names
    rw [read_store_one, load_whole, load_whole, load_whole]
  iexists _; isplitr
  swap; · iexact H5
  ipureintro
  sl_unfold_run_names
  rw [read_store_one, load_whole, load_whole, load_whole]

end Cert.KernelIdeal.Hand

end
-- ==== Proof.KI.Dat0.lean ====
/-
  The first kernel's region, point by point. The query window is the whole query at every point; the bank window's
  block at point t is rows 2000·t … 2000·t + 1999; the result window is written by the body at the last point only and
  written back there. Between points the two scratch buffers hold the running sums after the point before: that is
  the region's invariant. After the region the result array holds the quotient of the two sums after the last point.
-/
import proofs.«121708_g34351148433420_cont_8to1_b_51_5_alg».proof.Proof.KI.Acc
import proofs.«121708_g34351148433420_cont_8to1_b_51_5_alg».proof.Proof.KI.Body0
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block indices over the grid: the query's block is always block (0, 0); the bank's is block (t, 0). -/
theorem index0_0 : ∀ t : Fin cfg0.N, win0_0.index t 0 = 0 ∧ win0_0.index t 1 = 0 :=
  (by decide +kernel : ∀ t : Fin grid0.N, win0_0.index t 0 = 0 ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)

/-- The query window's block is the whole query array. -/
theorem iblk0_query (c : Dev nD) (t : Fin cfg0.N) : (iblk0 V c 0 t : Vec F S1024x16 .f32) = V c main_arg0 := by
  funext y
  unfold iblk0
  rw [View.read_apply]
  show V c main_arg0 _ = V c main_arg0 y
  congr 1
  funext a
  apply Fin.ext
  match a with
  | ⟨0, _⟩ => show win0_0.index t 0 * 1024 + 1 * (y 0).val = (y 0).val; rw [(index0_0 t).1]; omega
  | ⟨1, _⟩ => show win0_0.index t 1 * 16 + 1 * (y 1).val = (y 1).val; rw [(index0_0 t).2]; omega

/-- Entry (k, j) of the bank window's block at point t is entry (2000·t + k, j) of the bank. -/
theorem iblk0_bank (c : Dev nD) (t : Fin cfg0.N) (y : S2000x16.Idx) (i : S100000x16.Idx)
    (h0 : (i 0).val = 2000 * t.val + (y 0).val) (h1 : (i 1).val = (y 1).val) :
    (iblk0 V c 1 t : Vec F S2000x16 .f32) y = (V c main_arg1 : S100000x16.Idx → Elt F .f32) i := by
  unfold iblk0
  rw [View.read_apply]
  show V c main_arg1 _ = V c main_arg1 i
  congr 1
  funext a
  apply Fin.ext
  match a with
  | ⟨0, _⟩ => show win0_1.index t 0 * 2000 + 1 * (y 0).val = (i 0).val; rw [(index0_1 t).1, h0]; omega
  | ⟨1, _⟩ => show win0_1.index t 1 * 16 + 1 * (y 1).val = (i 1).val; rw [(index0_1 t).2, h1]; omega

theorem pos50 : 0 < cfg0.N := by
  rw [show cfg0.N = 50 from N_0]; omega

/-- The bank's blocks numbered by the natural numbers (past the grid: block 0 again; never consulted). -/
def gbAt (c : Dev nD) (n : ℕ) : Vec F S2000x16 .f32 :=
  if h : n < cfg0.N then iblk0 V c 1 ⟨n, h⟩ else iblk0 V c 1 ⟨0, pos50⟩

theorem gbAt_val (c : Dev nD) (t : Fin cfg0.N) : gbAt V c t.val = iblk0 V c 1 t := by
  unfold gbAt
  rw [dif_pos t.isLt]

/-- The two running sums after point `n`. -/
def scAt (c : Dev nD) (n : ℕ) : Vec F S1024x16 .f32 × Vec F S1024x1 .f32 := accAt (V c main_arg0) (gbAt V c) n

theorem scAt_first (c : Dev nD) (t : Fin cfg0.N) (h : t.val = 0) :
    scAt V c t.val = (k0_pay5 (iblk0 V c 0 t) (iblk0 V c 1 t) (k0_pay2 (F := F)), k0_pay6 (iblk0 V c 0 t) (iblk0 V c 1 t) (k0_pay3 (F := F))) := by
  rw [iblk0_query, ← gbAt_val, h]; rfl

theorem scAt_later (c : Dev nD) (t : Fin cfg0.N) (h : t.val ≠ 0) :
    scAt V c t.val = (k0_pay5 (iblk0 V c 0 t) (iblk0 V c 1 t) (scAt V c (t.val - 1)).1, k0_pay6 (iblk0 V c 0 t) (iblk0 V c 1 t) (scAt V c (t.val - 1)).2) := by
  rw [iblk0_query, ← gbAt_val]
  obtain ⟨n, hn⟩ : ∃ n, t.val = n + 1 := ⟨t.val - 1, by omega⟩
  rw [hn]; rfl

/-! ## The invariant -/

/-- The two scratch buffers, as memrefs. -/
abbrev scM0 : Memref sig .tc .vmem S1024x16 .f32 := Memref.whole cc0_scratch0
abbrev scM1 : Memref sig .tc .vmem S1024x1 .f32 := Memref.whole cc0_scratch1

/-- The scoped buffers this region neither stages nor uses: the second region's two staging buffers, at anything. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f))

/-- What the region is entered with, the scratch buffers as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ restS c) ∗ (∃ r, prngReg c r)) := by
  unfold Pipeline.ΦA restS; rw [scopedRest0_eq]; simp only [scM0, scM1, owns_whole]; rfl

/-- The invariant before point `n`: before the first point what the region is entered with; afterwards the two scratch
    buffers at the running sums after the point before. -/
def PhiS (c : Dev nD) : ℕ → sProp 𝕄
  | 0 => Pipeline.ΦA spec0 c
  | n + 1 => iprop((owns (c : Thread nD τ) scM0 fullShare (scAt V c n).1 ∗ owns (c : Thread nD τ) scM1 fullShare (scAt V c n).2 ∗ restS c)
      ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop((owns (c : Thread nD τ) scM0 fullShare (scAt V c n).1 ∗ owns (c : Thread nD τ) scM1 fullShare (scAt V c n).2 ∗ restS c)
      ∗ (∃ r, prngReg c r)) := rfl
theorem PhiS_pos (c : Dev nD) (n : ℕ) (hz : n ≠ 0) :
    PhiS V c n = iprop((owns (c : Thread nD τ) scM0 fullShare (scAt V c (n - 1)).1 ∗ owns (c : Thread nD τ) scM1 fullShare (scAt V c (n - 1)).2 ∗ restS c)
      ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (scAt V c t.val).1 (scAt V c t.val).2
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (scAt V c t.val).1 (scAt V c t.val).2 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## Where the result window is idle -/

theorem live0_0 : ∀ t : Fin cfg0.N, cfg0.idle 0 (grid0.coords t) = false := fun _ => rfl
theorem live0_1 : ∀ t : Fin cfg0.N, cfg0.idle 1 (grid0.coords t) = false := fun _ => rfl
theorem idle0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem live0_2 : ∀ t : Fin cfg0.N, condLast (grid0.coords t) → cfg0.idle 2 (grid0.coords t) = false := by decide +kernel

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem Phi_castSucc (c : Dev nD) (t : Fin cfg0.N) : (dat0 V c).Φ t.castSucc = PhiS V c t.val := by
  dsimp only [dat0]; simp only [Fin.coe_castSucc]

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl,
    show (dat0 V c).Φ t.succ = PhiS V c (t.val + 1) from rfl, PhiS_succ, Phi_castSucc,
    show (dat0 V c).leavesExact 0 t = owns (c : Thread nD τ) (st0_0 t) fullShare ((dat0 V c).after 0 t) from by
      unfold Dat.leavesExact; rw [live0_0 t],
    show (dat0 V c).leavesExact 1 t = owns (c : Thread nD τ) (st0_1 t) fullShare ((dat0 V c).after 1 t) from by
      unfold Dat.leavesExact; rw [live0_1 t],
    after0_0, after0_1]
  have hN : t.val < 50 := lt_of_lt_of_eq t.isLt (show cfg0.N = 50 from N_0)
  by_cases h0 : t.val = 0
  · have hl : ¬condLast (grid0.coords t) := fun h => by have := (hcondLast t).mp h; omega
    rw [Dat.leavesExact_idle (dat0 V c) 2 t (idle0_2 t hl) (noFlush0_2 t hl), PhiS_zero V c _ h0, PhiA0_eq, scAt_first V c t h0]
    iintro ⟨⟨⟨⟨%a, HS0⟩, ⟨%s, HS1⟩, Hrest⟩, Hg⟩, Ho, ⟨%d0, H0⟩, ⟨%d1, H1⟩, H2⟩
    iapply (run_first c Set.univ (grid0.coords t) _ _ _ _ _ _ _ _ _ _ ((hcondFirst t).mpr h0) hl (iblk0 V c 0 t) (iblk0 V c 1 t) a s _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitr [Hg]
      · isplitl [HS0]; · iexact HS0
        isplitl [HS1]; · iexact HS1
        iexact Hrest
      iexact Hg
    isplitl [Ho]; · iexact Ho
    isplitl [H0]; · iexact H0
    isplitl [H1]; · iexact H1
    iexact H2
  · have hf : ¬condFirst (grid0.coords t) := fun h => h0 ((hcondFirst t).mp h)
    rw [PhiS_pos V c _ h0, scAt_later V c t h0]
    by_cases h49 : t.val = 49
    · have hl : condLast (grid0.coords t) := (hcondLast t).mpr h49
      rw [show (dat0 V c).leavesExact 2 t = owns (c : Thread nD τ) (st0_2 t) fullShare ((dat0 V c).after 2 t) from by
        unfold Dat.leavesExact; rw [live0_2 t hl], after0_2, scAt_later V c t h0]
      iintro ⟨⟨⟨HS0, HS1, Hrest⟩, Hg⟩, Ho, ⟨%d0, H0⟩, ⟨%d1, H1⟩, ⟨%d2, H2⟩⟩
      iapply (run_last c Set.univ (grid0.coords t) _ _ _ _ _ _ _ _ _ _ hf hl (iblk0 V c 0 t) (iblk0 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      iexact H2
    · have hl : ¬condLast (grid0.coords t) := fun h => h49 ((hcondLast t).mp h)
      rw [Dat.leavesExact_idle (dat0 V c) 2 t (idle0_2 t hl) (noFlush0_2 t hl)]
      iintro ⟨⟨⟨HS0, HS1, Hrest⟩, Hg⟩, Ho, ⟨%d0, H0⟩, ⟨%d1, H1⟩, H2⟩
      iapply (run_mid c Set.univ (grid0.coords t) _ _ _ _ _ _ _ _ _ _ hf hl (iblk0 V c 0 t) (iblk0 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point, -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- and after the last point the invariant gives it back, the sums' names forgotten. -/
theorem hout0 (c : Dev nD) : (dat0 V c).Φ (Fin.last cfg0.N) ⊢ Pipeline.ΦA spec0 c := by
  have hN : cfg0.N = 50 := N_0
  rw [show (dat0 V c).Φ (Fin.last cfg0.N) = PhiS V c cfg0.N from rfl, PhiS_pos V c _ (by omega), PhiA0_eq]
  iintro ⟨⟨HS0, HS1, Hrest⟩, Hg⟩
  isplitr [Hg]
  · isplitl [HS0]; · iexists _; iexact HS0
    isplitl [HS1]; · iexists _; iexact HS1
    iexact Hrest
  iexact Hg

end Cert.KernelIdeal.Hand

end
-- ==== Proof.KI.Reg1.lean ====
/-
  The second kernel's region (no grid: one point, both windows the whole 100 × 1000 array): the body loads its
  input, computes the shifted softmax of all its entries and stores it whole into its output.
-/
import proofs.«121708_g34351148433420_cont_8to1_b_51_5_alg».proof.Proof.Gen.KernelIdeal.Launch
import proofs.«121708_g34351148433420_cont_8to1_b_51_5_alg».proof.Proof.Gen.KernelIdeal.Skeleton
import proofs.«121708_g34351148433420_cont_8to1_b_51_5_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at the point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-! ## The body's whole-buffer accesses -/

/-- The offsets of the body's accesses are zero on both axes. -/
theorem offsets_zero : (![0, 0] : Fin S100x1000.rank → Nat) = fun _ => 0 :=
  funext fun a => by
    match a with
    | ⟨0, _⟩ => rfl
    | ⟨1, _⟩ => rfl

/-- The rectangle of the body's loads and of its store: all 100 × 1000 entries of a staging buffer. -/
abbrev allEntries : Rect S100x1000 := Rect.unit (s := S100x1000) ![0, 0] S100x1000.size inb_S100x1000_S100x1000_0_0

/-- The body's single store reaches every entry of the output's staging buffer. -/
theorem store_reaches_all (p : Vec F S100x1000 .f32) (y : S100x1000.Idx) :
    ∃ pc ∈ ([⟨allEntries, p⟩] : List (View.Piece (Elt F) S100x1000 .f32)), y ∈ pc.1.set :=
  ⟨_, List.mem_singleton_self _, View.mem_set_unit_zero offsets_zero inb_S100x1000_S100x1000_0_0 y⟩

/-- A buffer stored into over all its entries reads back the stored value, whatever it held. -/
theorem read_after_store_all {κ : Kind} {sp : Space} (v : View sig κ sp S100x1000 .f32) (f : v.ty.Contents (Elt F))
    (p : Vec F S100x1000 .f32) :
    v.read (Elt F) (v.writes (Elt F) f [⟨allEntries, p⟩]) = p := by
  rw [View.read_writes_eq_canon _ _ _ (store_reaches_all p), View.canon_unit_zero offsets_zero]

/-- A load of all the entries of a buffer reads its contents. -/
theorem load_all {κ : Kind} {sp : Space} (v : View sig κ sp S100x1000 .f32) (f : v.ty.Contents (Elt F)) :
    v.readAt (Elt F) allEntries.toLoadRect f = v.read (Elt F) f := by
  rw [View.readAt_eq_ld, View.ld_unit_zero offsets_zero]

/-! ## The body's triple -/

set_option maxHeartbeats 1000000 in
/-- The body, run on two whole staging buffers of which the first holds `x0`, ends with the first unchanged and
    the second holding the shifted softmax `k1_pay1 x0` of all the entries of `x0`. -/
theorem gamma_body_triple (c : Dev nD) (E : Set ℕ) (arg0 : Memref sig .tc .vmem S100x1000 .f32) (harg0 : arg0.IsWhole)
    (arg1 : Memref sig .tc .vmem S100x1000 .f32) (harg1 : arg1.IsWhole) (x0 : Vec F S100x1000 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k1_pay1 x0)) -∗ K ⟨⟩))
      ⊢ wp frame (wpE (defs₀ (F := F)) Variants.none c none) E (cc1__gamma_body arg0 harg0 arg1 harg1) K := by
  simp only [cc1__gamma_body_eq_skeleton]; unfold cc1__gamma_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [read_after_store_all, load_all]

/-! ## What the body finds in the staging buffers and what it leaves there -/

/-- The body leaves the input's staging buffer as it found it, -/
theorem after_in (c : Dev nD) (t : Fin cfg1.N) : (dat1 V c).after 0 t = iblk1 V c 0 t := by dsimp only [dat1]
/-- and the output's at the shifted softmax of the input's. -/
theorem after_out (c : Dev nD) (t : Fin cfg1.N) : (dat1 V c).after 1 t = k1_pay1 (iblk1 V c 0 t) := by dsimp only [dat1]

/-- The input window is fetched at the one point, so the body finds its block in the staging buffer. -/
theorem before_in (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  try rfl

/-- What the body is called with at the point: the invariant, the core's debts, and the two staging buffers. -/
def bodyGiven (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- What it hands back: the same, the buffers at what the body leaves in them. -/
def bodyGivesBack (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the input's buffer holds the block, so the triple applies; the invariant and the debts
    are not touched. -/
theorem body_at_point (c : Dev nD) (t : Fin cfg1.N) :
    bodyGiven V c t ⊢ wp frame (wpE (defs₀ (F := F)) Variants.none c none) Set.univ (bodyAt1 t) (fun _ => bodyGivesBack V c t) := by
  unfold bodyGiven bodyGivesBack bodyAt1
  simp only [before_in]
  rw [show (dat1 V c).Φ t.succ = (dat1 V c).Φ t.castSucc from rfl,
    show (dat1 V c).owesAt () t.succ = (dat1 V c).owesAt () t.castSucc from rfl,
    after_in, after_out]
  iintro ⟨HΦ, Ho, ⟨%d0, Hin⟩, ⟨%d1, Hout⟩⟩
  iapply (gamma_body_triple c Set.univ _ _ _ _ (iblk1 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

theorem body_obligation1 (c : Dev nD) : BodyObligation (dat1 (F := F) V c) (defs₀ (F := F)) Variants.none () Set.univ := fun t => by
  rw [bigSep_W1, bigSep_W1]
  exact body_at_point V c t

/-! ## The output array after the region -/

/-- The one block of either window is its whole array: its offset on each axis is block index 0 times the size. -/
theorem block_offsets_zero (w : Pipeline.Window sig grid1) (hw : ∀ i a, w.indexMap i a = 0) (t : Fin grid1.N) :
    (fun a => w.index t a * w.size a) = fun _ => 0 :=
  funext fun a => by show w.indexMap (grid1.coords t) a * w.size a = 0; rw [hw, Nat.zero_mul]

/-- The input array read through the input window's block is the array. -/
theorem read_block_in (c : Dev nD) (t : Fin cfg1.N) (X : Buf (Elt F) ((c : Thread nD τ).loc main_call0_v1)) :
    ((cfg1.win 0).blk t).view.read (Elt F) X = X :=
  Memref.read_access_unit_zero (Elt F) main_call0_v1 (block_offsets_zero win1_0 (fun _ _ => rfl) t)
    (fun a => by rw [congrFun (block_offsets_zero win1_0 (fun _ _ => rfl) t) a]; exact Nat.le_of_eq (Nat.zero_add _)) X

/-- The output array read through the output window's block is the array. -/
theorem read_block_out (c : Dev nD) (t : Fin cfg1.N) (X : Buf (Elt F) ((c : Thread nD τ).loc main_call0_v2)) :
    ((cfg1.win 1).blk t).view.read (Elt F) X = X :=
  Memref.read_access_unit_zero (Elt F) main_call0_v2 (block_offsets_zero win1_1 (fun _ _ => rfl) t)
    (fun a => by rw [congrFun (block_offsets_zero win1_1 (fun _ _ => rfl) t) a]; exact Nat.le_of_eq (Nat.zero_add _)) X

/-- The input window's block at the point is the whole input array as the region finds it. -/
theorem block_in_eq (c : Dev nD) (t : Fin cfg1.N) : iblk1 V c 0 t = V c main_call0_v1 := by
  unfold iblk1
  exact read_block_in c t (V c main_call0_v1)

/-- The write-back moves all of the output's staging buffer. -/
theorem cut_out (t : Fin cfg1.N) (X : S100x1000.Idx → Elt F .f32) : (cfg1.win 1).cut (cfg1.grid.coords t) X = X := rfl

/-- What the point writes back is the output window's block of the shifted softmax of the whole input array. -/
theorem flushed_out (c : Dev nD) (t : Fin cfg1.N) :
    (dat1 V c).flushed 1 t = ((cfg1.win 1).blk t).view.read (Elt F) (k1_pay1 (V c main_call0_v1)) := by
  show (cfg1.win 1).cut (cfg1.grid.coords t) ((dat1 V c).after 1 t) = _
  rw [after_out, block_in_eq, read_block_out c]
  exact cut_out t _

/-- Every index of the output array lies in the one block. -/
theorem mem_block_out (t : Fin cfg1.N) (i : S100x1000.Idx) : i ∈ ((cfg1.win 1).blk t).view.set := by
  show i ∈ ((View.whole main_call0_v2).slice (win1_1.rect t)).set
  rw [View.set_slice_whole, Rect.mem_set_unit]
  intro a
  show win1_1.indexMap (grid1.coords t) a * S100x1000.size a ≤ (i a).val
    ∧ (i a).val < win1_1.indexMap (grid1.coords t) a * S100x1000.size a + S100x1000.size a
  rw [show win1_1.indexMap (grid1.coords t) a = 0 from rfl, Nat.zero_mul, Nat.zero_add]
  exact ⟨Nat.zero_le _, (i a).isLt⟩

/-- After the region the output array holds the body's result of the whole input array. -/
theorem arrAt1_out (c : Dev nD) : (dat1 V c).arrAt 1 cfg1.N = k1_pay1 (V c main_call0_v1) :=
  (dat1 V c).arrAt_eq_of_cover 1 (k1_pay1 (V c main_call0_v1)) (fun t _ => flushed_out V c t)
    fun i => ⟨t1_0, flush1_1 t1_0, mem_block_out t1_0 i⟩

end Cert.KernelIdeal.Hand

end
-- ==== Proof.KI.Run.lean ====
/-
  The whole program as four segments, in order: the first kernel's region, the reshape of the vector to 100 × 1000,
  the second kernel's region, the reshape back. Between two segments a core holds every unscoped buffer at the
  contents named here; a region changes only its result array, a reshape only the buffer it writes. Every weakly
  fair execution therefore ends, and at the end the two result buffers hold what the two regions left and the
  three argument arrays hold what they were launched with.
-/
import proofs.«121708_g34351148433420_cont_8to1_b_51_5_alg».proof.Proof.KI.Dat0
import proofs.«121708_g34351148433420_cont_8to1_b_51_5_alg».proof.Proof.KI.Reg1
import proofs.«121708_g34351148433420_cont_8to1_b_51_5_alg».proof.Proof.Gen.KernelIdeal.Regions
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch (the first region's entry). -/
abbrev B0 : Dev nD → Valuation τ sig (Elt F) := fun c b => m (c, b)
abbrev E0 : (c : Dev nD) → (b : Ref sig .tc) → Buf (Elt F) ((c : Thread nD τ).loc b) := fun c b => B0 m c b
/-- After the first region: its arrays at what the pipeline leaves, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the first reshape (the second region's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- After the second region. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)
/-- After the second reshape (the end). -/
abbrev B4 : Dev nD → Valuation τ sig (Elt F) := fun c => StableHlo.after hostOps2 (B3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m c) ∗ ∃ r, prngReg c r)

/-! ## The regions as segments -/

/-- After its last point the first region hands back its scoped buffers, at anything, and the generator register. -/
theorem scoped_back (c : Dev nD) :
    (dat0 (E0 m) c).Φ (Fin.last cfg0.N)
      ⊢ iprop(Pipeline.scopedRest (Ix := Unit) (Name := ℕ) (U := UR sig nD τ) (Lvl := ℕ) (Val := Elt F) spec0 c ∗ ∃ r, prngReg c r) := by
  have h := hout0 (E0 m) c
  unfold Pipeline.ΦA at h
  exact h

set_option backward.isDefEq.respectTransparency.types false in
/-- The first region: entered from every unscoped buffer at launch contents, left with its result array changed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (E0 m) c).Φ (Fin.last cfg0.N) ⊢ _
    have hb := scoped_back m c
    iintro H
    ihave H' := hb $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers after the first reshape, left with its result array changed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]
theorem main_run (c : Dev nD) : main (F := F) c = Pipeline.Seg.run (segs m) := (main_chain c).trans (by chain_rfl)

set_option backward.isDefEq.respectTransparency.types false in
/-- Every weakly fair execution ends, and at the end every unscoped buffer of every core holds the last boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (B4 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.KernelIdeal.Hand

end
-- ==== Proof.KI.Out.lean ====
/-
  What the two result buffers and the three argument arrays hold at the end, read back through the segment
  boundaries: a reshape writes one buffer and leaves the others, a region changes only its result array. The first
  result is what the first kernel wrote back at its last point, the quotient of its two running sums; the second is the
  second kernel's result laid out as a vector again.
-/
import proofs.«121708_g34351148433420_cont_8to1_b_51_5_alg».proof.Proof.KI.Run
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first region's result array -/

section
variable (V : (c : Dev nD) → (b : Ref sig .tc) → Buf (Elt F) ((c : Thread nD τ).loc b))

theorem index0_2 : ∀ t : Fin cfg0.N, win0_2.index t 0 = 0 ∧ win0_2.index t 1 = 0 :=
  (by decide +kernel : ∀ t : Fin grid0.N, win0_2.index t 0 = 0 ∧ win0_2.index t 1 = 0)

/-- The result window's one block starts at offset zero on both axes. -/
theorem result_offsets_zero (t : Fin cfg0.N) : (fun a => win0_2.index t a * main_v0_0.ty.shape.size a) = fun _ => 0 :=
  funext fun a => by
    match a with
    | ⟨0, _⟩ => show win0_2.index t 0 * _ = 0; rw [(index0_2 t).1, Nat.zero_mul]
    | ⟨1, _⟩ => show win0_2.index t 1 * _ = 0; rw [(index0_2 t).2, Nat.zero_mul]

/-- The result array read through the result window's block is the array. -/
theorem read_block_result (c : Dev nD) (t : Fin cfg0.N) (X : Buf (Elt F) ((c : Thread nD τ).loc main_v0_0)) :
    ((cfg0.win 2).blk t).view.read (Elt F) X = X :=
  Memref.read_access_unit_zero (Elt F) main_v0_0 (result_offsets_zero t)
    (fun a => by rw [congrFun (result_offsets_zero t) a]; exact Nat.le_of_eq (Nat.zero_add _)) X

/-- The last point. -/
def tLast : Fin cfg0.N := ⟨49, by rw [show cfg0.N = 50 from N_0]; decide⟩

/-- The quotient of the two running sums after the last point. -/
def quotLast (c : Dev nD) : Vec F S1024x16 .f32 := k0_pay1 (scAt V c 49).1 (scAt V c 49).2

/-- The one write-back, at the last point, writes the quotient. -/
theorem flushed_result (c : Dev nD) (t : Fin cfg0.N) (hf : (cfg0.win 2).flush t = true) :
    (dat0 V c).flushed 2 t = ((cfg0.win 2).blk t).view.read (Elt F) (quotLast V c) := by
  have hN : t.val < 50 := lt_of_lt_of_eq t.isLt (show cfg0.N = 50 from N_0)
  have h49 : t.val = 49 := by have := (flush0_2 t).mp hf; omega
  show (cfg0.win 2).cut (grid0.coords t) ((dat0 V c).after 2 t) = _
  rw [after0_2, read_block_result c, h49]
  rfl

/-- Every index of the result array lies in the block written back at the last point. -/
theorem mem_block_result (i : S1024x16.Idx) : i ∈ ((cfg0.win 2).blk tLast).view.set := by
  show i ∈ ((View.whole main_v0_0).slice (win0_2.rect tLast)).set
  rw [View.set_slice_whole, Rect.mem_set_unit]
  intro a
  have h0 : (i 0 : Nat) < 1024 := (i 0).isLt
  have h1 : (i 1 : Nat) < 16 := (i 1).isLt
  match a with
  | ⟨0, _⟩ => show win0_2.index tLast 0 * win0_2.size 0 ≤ (i 0 : Nat) ∧ (i 0 : Nat) < win0_2.index tLast 0 * win0_2.size 0 + win0_2.xsize (grid0.coords tLast) 0
              rw [show win0_2.index tLast 0 * win0_2.size 0 = 0 from by decide +kernel, show win0_2.xsize (grid0.coords tLast) 0 = 1024 from by decide +kernel]; omega
  | ⟨1, _⟩ => show win0_2.index tLast 1 * win0_2.size 1 ≤ (i 1 : Nat) ∧ (i 1 : Nat) < win0_2.index tLast 1 * win0_2.size 1 + win0_2.xsize (grid0.coords tLast) 1
              rw [show win0_2.index tLast 1 * win0_2.size 1 = 0 from by decide +kernel, show win0_2.xsize (grid0.coords tLast) 1 = 16 from by decide +kernel]; omega

/-- After the region the result array holds the quotient. -/
theorem arrAt0_out (c : Dev nD) : (dat0 V c).arrAt 2 cfg0.N = quotLast V c :=
  (dat0 V c).arrAt_eq_of_cover 2 (quotLast V c) (flushed_result V c)
    fun i => ⟨tLast, (flush0_2 tLast).mpr rfl, mem_block_result i⟩

end

/-! ## Each buffer read back through the boundaries -/

variable (m : (ℓ : Loc nD τ sig) → Buf (Elt F) ℓ) (ρ : Dev nD → PrngReg)

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (r := main_arg0) (by decide)
    _ = B2 m c (Proc.devRef .tc main_arg0) := B3_of_ne m c main_arg0 (by decide)
    _ = B1 m c (Proc.devRef .tc main_arg0) := StableHlo.after_of_writes_sub hostOps1 _ hostOps1_writes (r := main_arg0) (by decide)
    _ = B0 m c (Proc.devRef .tc main_arg0) := (B1_arr m c 0).trans (((dat0 (E0 m) c).arrAt_in 0 rfl _).trans (A_eq0 (E0 m) c 0))
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (r := main_arg1) (by decide)
    _ = B2 m c (Proc.devRef .tc main_arg1) := B3_of_ne m c main_arg1 (by decide)
    _ = B1 m c (Proc.devRef .tc main_arg1) := StableHlo.after_of_writes_sub hostOps1 _ hostOps1_writes (r := main_arg1) (by decide)
    _ = B0 m c (Proc.devRef .tc main_arg1) := (B1_arr m c 1).trans (((dat0 (E0 m) c).arrAt_in 1 rfl _).trans (A_eq0 (E0 m) c 1))
    _ = m ((c : Thread nD τ).loc main_arg1) := rfl

theorem B1_main_arg2 (c : Dev nD) : B1 m c (Proc.devRef .tc main_arg2) = m ((c : Thread nD τ).loc main_arg2) :=
  (B1_of_ne m c main_arg2 (by decide)).trans rfl

theorem B4_main_arg2 (c : Dev nD) : B4 m c (Proc.devRef .tc main_arg2) = m ((c : Thread nD τ).loc main_arg2) :=
  calc B4 m c (Proc.devRef .tc main_arg2)
    _ = B3 m c (Proc.devRef .tc main_arg2) := StableHlo.after_of_writes_sub hostOps2 _ hostOps2_writes (r := main_arg2) (by decide)
    _ = B2 m c (Proc.devRef .tc main_arg2) := B3_of_ne m c main_arg2 (by decide)
    _ = B1 m c (Proc.devRef .tc main_arg2) := StableHlo.after_of_writes_sub hostOps1 _ hostOps1_writes (r := main_arg2) (by decide)
    _ = m ((c : Thread nD τ).loc main_arg2) := B1_main_arg2 m c

/-- The first result buffer ends at the first region's quotient. -/
theorem B4_main_v0_0 (c : Dev nD) : B4 m c (Proc.devRef .tc main_v0_0) = quotLast (E0 m) c :=
  calc B4 m c (Proc.devRef .tc main_v0_0)
    _ = B3 m c (Proc.devRef .tc main_v0_0) := StableHlo.after_of_writes_sub hostOps2 _ hostOps2_writes (r := main_v0_0) (by decide)
    _ = B2 m c (Proc.devRef .tc main_v0_0) := B3_of_ne m c main_v0_0 (by decide)
    _ = B1 m c (Proc.devRef .tc main_v0_0) := StableHlo.after_of_writes_sub hostOps1 _ hostOps1_writes (r := main_v0_0) (by decide)
    _ = (dat0 (E0 m) c).arrAt 2 cfg0.N := B1_arr m c 2
    _ = quotLast (E0 m) c := arrAt0_out (E0 m) c

/-- The second region finds the vector laid out as 100 × 1000. -/
theorem E2_input (c : Dev nD) :
    (E2 m c main_call0_v1 : Vec F S100x1000 .f32) = shapeCast S100x1000 (m ((c : Thread nD τ).loc main_arg2)) Facts₀.shapeCasts_S100000_S100x1000 := by
  show StableHlo.after hostOps1 (B1 m c) (Proc.devRef .tc main_call0_v1) = _
  after_results
  rw [B1_main_arg2]
  rfl

/-- The second result buffer ends at the second region's result laid out as a vector. -/
theorem B4_main_v0_1 (c : Dev nD) :
    (B4 m c (Proc.devRef .tc main_v0_1) : Vec F S100000 .f32)
      = shapeCast S100000 (k1_pay1 (shapeCast S100x1000 (m ((c : Thread nD τ).loc main_arg2)) Facts₀.shapeCasts_S100000_S100x1000))
          Facts₀.shapeCasts_S100x1000_S100000 := by
  have h2 : B3 m c (Proc.devRef .tc main_call0_v2) = k1_pay1 (shapeCast S100x1000 (m ((c : Thread nD τ).loc main_arg2)) Facts₀.shapeCasts_S100000_S100x1000) :=
    (B3_arr m c 1).trans ((arrAt1_out (E2 m) c).trans (congrArg k1_pay1 (E2_input m c)))
  show StableHlo.after hostOps2 (B3 m c) (Proc.devRef .tc main_v0_1) = _
  after_results
  rw [h2]
  rfl

/-! ## The run, read -/

/-- Every weakly fair execution ends with the first result at the quotient of the two running sums after the last
    point, the second at the second kernel's result of the vector, and the three arguments as launched. -/
theorem run_all : θ_run defs (onTc (τ := τ) (main (F := F))) ⟨m, fun _ => 0, ρ⟩ (fun r => ∀ c : Dev nD,
      r.2.mem ((c.tc : Thread nD τ).loc main_v0_0) = quotLast (E0 m) c
      ∧ r.2.mem ((c.tc : Thread nD τ).loc main_v0_1)
          = shapeCast S100000 (k1_pay1 (shapeCast S100x1000 (m ((c : Thread nD τ).loc main_arg2)) Facts₀.shapeCasts_S100000_S100x1000))
              Facts₀.shapeCasts_S100x1000_S100000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0_0 (by decide))).trans (B4_main_v0_0 m c),
     (h c _ (mem_uc main_v0_1 (by decide))).trans (B4_main_v0_1 m c),
     (h c _ (mem_uc main_arg0 (by decide))).trans (B4_main_arg0 m c),
     (h c _ (mem_uc main_arg1 (by decide))).trans (B4_main_arg1 m c),
     (h c _ (mem_uc main_arg2 (by decide))).trans (B4_main_arg2 m c)⟩) (run_held m ρ)

/-- The frame: every weakly fair execution ends with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.1, (h c).2.2.2.1, (h c).2.2.2.2⟩) (run_all m ρ)

end Cert.KernelIdeal.Hand

end
-- ==== Proof.Spec.lean ====
/-
  What both programs compute, written once over the extended reals, index by index.

  Output 0 (the "read"): rows of the query and of the bank are scaled to unit length (a row divided by
  the larger of its Euclidean norm and a small positive constant); the similarity of query row `b` and bank row
  `n` is the inner product of the two scaled rows; the result row `b` is the average of the bank's rows weighted
  by `exp` of the similarities: (Σ_n e^{s(b,n)} · G(n,d)) / (Σ_n e^{s(b,n)}).
  Output 1: the softmax of the vector `γ`, with its maximum subtracted before `exp`.
-/
import Idealize.ShloMosaic.PureOps.Ideal
import Idealize.ShloMosaic.Lib.ValueIdx

noncomputable section

namespace Cert.Spec

open Idealize.ShloMosaic Idealize.ShloMosaic.ValueIdx

/-- The small positive constant under the norms (the f32 nearest 1e-12), as the extended real its pattern denotes. -/
def eps : EReal := Ideal.ofBits .f32 0x2B8CBCCC#32

/-- The guarded Euclidean norm of row `r` of a matrix with 16 columns. -/
def rowNorm {R : Nat} (x : (⟨2, ![R, 16]⟩ : Shape).Idx → EReal) (r : Fin R) : EReal :=
  max (Ideal.sqrt (∑ j : Fin 16, x (ix2 r j) * x (ix2 r j))) eps

/-- Entry `j` of row `r` scaled to unit length. -/
def unitRow {R : Nat} (x : (⟨2, ![R, 16]⟩ : Shape).Idx → EReal) (r : Fin R) (j : Fin 16) : EReal :=
  Ideal.div (x (ix2 r j)) (rowNorm x r)

/-- The similarity of row `b` of `q` and row `n` of `g`: the inner product of the unit rows. -/
def sim {B N : Nat} (q : (⟨2, ![B, 16]⟩ : Shape).Idx → EReal) (g : (⟨2, ![N, 16]⟩ : Shape).Idx → EReal)
    (b : Fin B) (n : Fin N) : EReal :=
  ∑ j : Fin 16, unitRow q b j * unitRow g n j

/-- The weight of bank row `n` for query row `b`, not normalised. -/
def wgt {B N : Nat} (q : (⟨2, ![B, 16]⟩ : Shape).Idx → EReal) (g : (⟨2, ![N, 16]⟩ : Shape).Idx → EReal)
    (b : Fin B) (n : Fin N) : EReal :=
  Ideal.exp (sim q g b n)

/-- The weighted sum of column `d` of the bank for query row `b`. -/
def num (q : (⟨2, ![1024, 16]⟩ : Shape).Idx → EReal) (g : (⟨2, ![100000, 16]⟩ : Shape).Idx → EReal)
    (b : Fin 1024) (d : Fin 16) : EReal :=
  ∑ n : Fin 100000, wgt q g b n * g (ix2 n d)

/-- The sum of the weights for query row `b`. -/
def den (q : (⟨2, ![1024, 16]⟩ : Shape).Idx → EReal) (g : (⟨2, ![100000, 16]⟩ : Shape).Idx → EReal)
    (b : Fin 1024) : EReal :=
  ∑ n : Fin 100000, wgt q g b n

/-- Output 0: the weighted average, as a quotient of the two running sums. -/
def read (q : (⟨2, ![1024, 16]⟩ : Shape).Idx → EReal) (g : (⟨2, ![100000, 16]⟩ : Shape).Idx → EReal) :
    (⟨2, ![1024, 16]⟩ : Shape).Idx → EReal :=
  fun i => Ideal.div (num q g (i 0) (i 1)) (den q g (i 0))

/-- The largest similarity of query row `b` (from `-∞`). -/
def simMax (q : (⟨2, ![1024, 16]⟩ : Shape).Idx → EReal) (g : (⟨2, ![100000, 16]⟩ : Shape).Idx → EReal)
    (b : Fin 1024) : EReal :=
  (Finset.univ : Finset (Fin 100000)).fold max ⊥ (fun n => sim q g b n)

/-- Output 0 as the reference arranges it: the shifted weights normalised first, then averaged. -/
def readShifted (q : (⟨2, ![1024, 16]⟩ : Shape).Idx → EReal) (g : (⟨2, ![100000, 16]⟩ : Shape).Idx → EReal) :
    (⟨2, ![1024, 16]⟩ : Shape).Idx → EReal :=
  fun i => ∑ n : Fin 100000,
    Ideal.div (Ideal.exp (sim q g (i 0) n - simMax q g (i 0)))
      (∑ n' : Fin 100000, Ideal.exp (sim q g (i 0) n' - simMax q g (i 0))) * g (ix2 n (i 1))

/-- The largest entry of `γ` (from `-∞`). -/
def vecMax (γ : (⟨1, ![100000]⟩ : Shape).Idx → EReal) : EReal :=
  (Finset.univ : Finset (Fin 100000)).fold max ⊥ (fun n => γ (ix1 n))

/-- Output 1: the softmax of `γ`, shifted by its maximum. -/
def gsoft (γ : (⟨1, ![100000]⟩ : Shape).Idx → EReal) : (⟨1, ![100000]⟩ : Shape).Idx → EReal :=
  fun i => Ideal.div (Ideal.exp (γ i - vecMax γ)) (∑ n : Fin 100000, Ideal.exp (γ (ix1 n) - vecMax γ))

/-- Every entry is a real number. -/
def Finite {s : Shape} (x : s.Idx → EReal) : Prop := ∀ i, ∃ r : ℝ, x i = (r : EReal)

end Cert.Spec

end
-- ==== Proof.KernelPay.lean ====
/-
  The first kernel's payloads read at an index, over the extended reals: one point's contribution to the
  weighted sum and to the sum of weights, the reset values, and the final quotient.
-/
import proofs.«121708_g34351148433420_cont_8to1_b_51_5_alg».proof.Proof.Gen.KernelIdeal.Skeleton
import proofs.«121708_g34351148433420_cont_8to1_b_51_5_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! ## Layout operations of a column, and a lane sum, read at an index -/

/-- A vector viewed as a column reads, at row `i`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a matrix with `C` columns reads, at row `r`, the sum of the row's entries. -/
theorem rowSum_apply {R C : ℕ} (y : FVec Ideal ⟨2, ![R, C]⟩ .f32)
    (hr : (⟨2, ![R, C]⟩ : Shape).Reduces [1] ⟨1, ![R]⟩) (hφ : FKind.Formats .f32)
    (hacc : (0x00000000#32 : BitVec 32) = FKind.add.neutral .f32 hφ) (r : Fin R) :
    multiReduction (F := Ideal) .add [1] ⟨1, ![R]⟩ y 0x00000000#32 hr hφ hacc (ix1 r) = ∑ j : Fin C, y (ix2 r j) := by
  refine (Ideal.multiReduction_add_single y 0x00000000#32 hr hφ hacc (ix1 r)).trans ?_
  refine Finset.sum_congr rfl fun j _ => ?_
  exact congrArg y (funext fun a => Fin.ext (by match a with | ⟨0, _⟩ => rfl | ⟨1, _⟩ => rfl))

/-! ## Rows scaled to unit length -/

/-- The small constant under the norms, as the kernel writes it, is the specification's. -/
theorem eps_eq : (Scalar.ofBits .f32 0x2B8CBCCC#32 : Ideal .f32) = Cert.Spec.eps := rfl

/-- A 16-column matrix divided row by row by the larger of the row's Euclidean norm and the small constant reads, at `(r, j)`, entry `j` of the unit row `r`. -/
theorem unitRows_apply {R : ℕ} (x : FVec Ideal ⟨2, ![R, 16]⟩ .f32)
    (hr : (⟨2, ![R, 16]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, 16]⟩)
    (r : Fin R) (j : Fin 16) :
    divf x (broadcastTo ⟨2, ![R, 16]⟩
        (maximumf (sqrt (shapeCast ⟨2, ![R, 1]⟩
            (multiReduction (F := Ideal) .add [1] ⟨1, ![R]⟩ (mulf x x) 0x00000000#32 hr hφ hacc) hc))
          (broadcast ⟨2, ![R, 1]⟩ (Scalar.ofBits .f32 0x2B8CBCCC#32))) hb) (ix2 r j)
      = Cert.Spec.unitRow x r j := by
  rw [divf_apply, broadcastTo_a1_ab_apply, maximumf_apply, broadcast_apply, eps_eq]
  show Ideal.div (x (ix2 r j)) (max (Ideal.sqrt (shapeCast ⟨2, ![R, 1]⟩ _ hc (ix2 r (0 : Fin 1)))) Cert.Spec.eps) = _
  rw [shapeCast_a_a1_apply, rowSum_apply]
  rfl

/-! ## The two products read at an index -/

/-- The similarities' product reads its left operand's row at the output's row … -/
theorem lhs_sim_0 (i : S1024x2000.Idx) (q : dot_S1024x16_S2000x16_S1024x2000_1_1_0_0_n_n.contr.Idx) :
    (dot_S1024x16_S2000x16_S1024x2000_1_1_0_0_n_n.lhsIdx i q 0).val = (i 0).val := by
  unfold DotDims.lhsIdx
  rw [dif_neg (show ¬(0 : Fin S1024x16.rank) ∈ dot_S1024x16_S2000x16_S1024x2000_1_1_0_0_n_n.lhsBatch by decide), dif_pos (show (0 : Fin S1024x16.rank) ∈ dot_S1024x16_S2000x16_S1024x2000_1_1_0_0_n_n.lhsNonContracting by decide)]
  rfl
/-- … and its column at the contraction's coordinate; -/
theorem lhs_sim_1 (i : S1024x2000.Idx) (q : dot_S1024x16_S2000x16_S1024x2000_1_1_0_0_n_n.contr.Idx) :
    (dot_S1024x16_S2000x16_S1024x2000_1_1_0_0_n_n.lhsIdx i q 1).val = (q ⟨0, by decide⟩).val :=
  dot_S1024x16_S2000x16_S1024x2000_1_1_0_0_n_n.lhsIdx_val_of_single rfl i q
/-- its right operand's row at the output's column … -/
theorem rhs_sim_0 (i : S1024x2000.Idx) (q : dot_S1024x16_S2000x16_S1024x2000_1_1_0_0_n_n.contr.Idx) :
    (dot_S1024x16_S2000x16_S1024x2000_1_1_0_0_n_n.rhsIdx i q 0).val = (i 1).val := by
  unfold DotDims.rhsIdx
  rw [dif_neg (show ¬(0 : Fin S2000x16.rank) ∈ dot_S1024x16_S2000x16_S1024x2000_1_1_0_0_n_n.rhsBatch by decide), dif_pos (show (0 : Fin S2000x16.rank) ∈ dot_S1024x16_S2000x16_S1024x2000_1_1_0_0_n_n.rhsNonContracting by decide)]
  rfl
/-- … and its column at the contraction's coordinate. -/
theorem rhs_sim_1 (i : S1024x2000.Idx) (q : dot_S1024x16_S2000x16_S1024x2000_1_1_0_0_n_n.contr.Idx) :
    (dot_S1024x16_S2000x16_S1024x2000_1_1_0_0_n_n.rhsIdx i q 1).val = (q ⟨0, by decide⟩).val :=
  dot_S1024x16_S2000x16_S1024x2000_1_1_0_0_n_n.rhsIdx_val_of_single rfl i q

/-- A 1024 × 16 matrix times the transpose of a 2000 × 16 one, from zero, reads at `(b, k)` the inner product of their rows `b` and `k`. -/
theorem simProduct_apply (u : FVec Ideal S1024x16 .f32) (v : FVec Ideal S2000x16 .f32) (b : Fin 1024) (k : Fin 2000) :
    matmul dot_S1024x16_S2000x16_S1024x2000_1_1_0_0_n_n none u v (constant (F := Ideal) S1024x2000 .f32 0x00000000#32) (ix2 b k)
      = ∑ j : Fin 16, u (ix2 b j) * v (ix2 k j) := by
  simp only [matmul]
  rw [Ideal.matmul_constant_zero_apply, ← Equiv.sum_comp (contrEquiv1 dot_S1024x16_S2000x16_S1024x2000_1_1_0_0_n_n 16 rfl rfl).symm]
  refine Finset.sum_congr rfl fun j _ => ?_
  have hj := contrEquiv1_symm_val dot_S1024x16_S2000x16_S1024x2000_1_1_0_0_n_n 16 rfl rfl j
  have el : dot_S1024x16_S2000x16_S1024x2000_1_1_0_0_n_n.lhsIdx (ix2 b k) ((contrEquiv1 dot_S1024x16_S2000x16_S1024x2000_1_1_0_0_n_n 16 rfl rfl).symm j) = ix2 b j := funext fun a => Fin.ext (by
    match a with
    | ⟨0, _⟩ => exact lhs_sim_0 _ _
    | ⟨1, _⟩ => exact (lhs_sim_1 _ _).trans hj)
  have er : dot_S1024x16_S2000x16_S1024x2000_1_1_0_0_n_n.rhsIdx (ix2 b k) ((contrEquiv1 dot_S1024x16_S2000x16_S1024x2000_1_1_0_0_n_n 16 rfl rfl).symm j) = ix2 k j := funext fun a => Fin.ext (by
    match a with
    | ⟨0, _⟩ => exact rhs_sim_0 _ _
    | ⟨1, _⟩ => exact (rhs_sim_1 _ _).trans hj)
  rw [el, er]

/-- The weighted sum's product reads its left operand's row at the output's row … -/
theorem lhs_acc_0 (i : S1024x16.Idx) (q : dot_S1024x2000_S2000x16_S1024x16_1_0_0_1_n_n.contr.Idx) :
    (dot_S1024x2000_S2000x16_S1024x16_1_0_0_1_n_n.lhsIdx i q 0).val = (i 0).val := by
  unfold DotDims.lhsIdx
  rw [dif_neg (show ¬(0 : Fin S1024x2000.rank) ∈ dot_S1024x2000_S2000x16_S1024x16_1_0_0_1_n_n.lhsBatch by decide), dif_pos (show (0 : Fin S1024x2000.rank) ∈ dot_S1024x2000_S2000x16_S1024x16_1_0_0_1_n_n.lhsNonContracting by decide)]
  rfl
/-- … and its column at the contraction's coordinate; -/
theorem lhs_acc_1 (i : S1024x16.Idx) (q : dot_S1024x2000_S2000x16_S1024x16_1_0_0_1_n_n.contr.Idx) :
    (dot_S1024x2000_S2000x16_S1024x16_1_0_0_1_n_n.lhsIdx i q 1).val = (q ⟨0, by decide⟩).val :=
  dot_S1024x2000_S2000x16_S1024x16_1_0_0_1_n_n.lhsIdx_val_of_single rfl i q
/-- its right operand's row at the contraction's coordinate … -/
theorem rhs_acc_0 (i : S1024x16.Idx) (q : dot_S1024x2000_S2000x16_S1024x16_1_0_0_1_n_n.contr.Idx) :
    (dot_S1024x2000_S2000x16_S1024x16_1_0_0_1_n_n.rhsIdx i q 0).val = (q ⟨0, by decide⟩).val :=
  dot_S1024x2000_S2000x16_S1024x16_1_0_0_1_n_n.rhsIdx_val_of_single rfl i q
/-- … and its column at the output's column. -/
theorem rhs_acc_1 (i : S1024x16.Idx) (q : dot_S1024x2000_S2000x16_S1024x16_1_0_0_1_n_n.contr.Idx) :
    (dot_S1024x2000_S2000x16_S1024x16_1_0_0_1_n_n.rhsIdx i q 1).val = (i 1).val := by
  unfold DotDims.rhsIdx
  rw [dif_neg (show ¬(1 : Fin S2000x16.rank) ∈ dot_S1024x2000_S2000x16_S1024x16_1_0_0_1_n_n.rhsBatch by decide), dif_pos (show (1 : Fin S2000x16.rank) ∈ dot_S1024x2000_S2000x16_S1024x16_1_0_0_1_n_n.rhsNonContracting by decide)]
  rfl

/-- A 1024 × 2000 matrix times a 2000 × 16 one, from zero, reads at `(b, d)` the sum over `k` of entry `(b, k)` times entry `(k, d)`. -/
theorem accProduct_apply (e : FVec Ideal S1024x2000 .f32) (g : FVec Ideal S2000x16 .f32) (b : Fin 1024) (d : Fin 16) :
    matmul dot_S1024x2000_S2000x16_S1024x16_1_0_0_1_n_n none e g (constant (F := Ideal) S1024x16 .f32 0x00000000#32) (ix2 b d)
      = ∑ k : Fin 2000, e (ix2 b k) * g (ix2 k d) := by
  simp only [matmul]
  rw [Ideal.matmul_constant_zero_apply, ← Equiv.sum_comp (contrEquiv1 dot_S1024x2000_S2000x16_S1024x16_1_0_0_1_n_n 2000 rfl rfl).symm]
  refine Finset.sum_congr rfl fun k _ => ?_
  have hk := contrEquiv1_symm_val dot_S1024x2000_S2000x16_S1024x16_1_0_0_1_n_n 2000 rfl rfl k
  have el : dot_S1024x2000_S2000x16_S1024x16_1_0_0_1_n_n.lhsIdx (ix2 b d) ((contrEquiv1 dot_S1024x2000_S2000x16_S1024x16_1_0_0_1_n_n 2000 rfl rfl).symm k) = ix2 b k := funext fun a => Fin.ext (by
    match a with
    | ⟨0, _⟩ => exact lhs_acc_0 _ _
    | ⟨1, _⟩ => exact (lhs_acc_1 _ _).trans hk)
  have er : dot_S1024x2000_S2000x16_S1024x16_1_0_0_1_n_n.rhsIdx (ix2 b d) ((contrEquiv1 dot_S1024x2000_S2000x16_S1024x16_1_0_0_1_n_n 2000 rfl rfl).symm k) = ix2 k d := funext fun a => Fin.ext (by
    match a with
    | ⟨0, _⟩ => exact (rhs_acc_0 _ _).trans hk
    | ⟨1, _⟩ => exact rhs_acc_1 _ _)
  rw [el, er]

/-! ## The payloads -/

/-- The reset value of the weighted sum is zero everywhere. -/
theorem pay2_apply (i : S1024x16.Idx) : k0_pay2 (F := Ideal) i = 0 := by
  unfold k0_pay2
  rw [shapeCast_self, broadcast_apply]
  exact Ideal.ofBits_zero_f32

/-- The reset value of the sum of weights is zero everywhere. -/
theorem pay3_apply (i : S1024x1.Idx) : k0_pay3 (F := Ideal) i = 0 := by
  unfold k0_pay3
  rw [shapeCast_self, broadcast_apply]
  exact Ideal.ofBits_zero_f32

/-- The weights of one point: at `(b, k)`, `exp` of the inner product of unit row `b` of the query and unit row `k` of the block. -/
theorem pay4_apply (x : FVec Ideal S1024x16 .f32) (g : FVec Ideal S2000x16 .f32) (b : Fin 1024) (k : Fin 2000) :
    k0_pay4 (F := Ideal) x g (ix2 b k) = Cert.Spec.wgt x g b k := by
  unfold k0_pay4
  dsimp only
  show Ideal.exp (matmul dot_S1024x16_S2000x16_S1024x2000_1_1_0_0_n_n none _ _ (constant (F := Ideal) S1024x2000 .f32 0x00000000#32) (ix2 b k)) = _
  rw [simProduct_apply]
  refine congrArg Ideal.exp (Finset.sum_congr rfl fun j _ => ?_)
  exact congrArg₂ (· * ·) (unitRows_apply x _ _ _ _ _ b j) (unitRows_apply g _ _ _ _ _ k j)

/-- One point adds, at (b, d), the sum over the block's rows of weight times the row's entry d. -/
theorem pay5_apply (x : FVec Ideal S1024x16 .f32) (g : FVec Ideal S2000x16 .f32) (a : FVec Ideal S1024x16 .f32)
    (b : Fin 1024) (d : Fin 16) :
    k0_pay5 (F := Ideal) x g a (ix2 b d) = a (ix2 b d) + ∑ k : Fin 2000, Cert.Spec.wgt x g b k * g (ix2 k d) := by
  unfold k0_pay5
  rw [shapeCast_self, addf_apply, accProduct_apply]
  refine congrArg (a (ix2 b d) + ·) (Finset.sum_congr rfl fun k _ => ?_)
  rw [pay4_apply]

/-- One point adds, at row b, the sum of the block's weights. -/
theorem pay6_apply (x : FVec Ideal S1024x16 .f32) (g : FVec Ideal S2000x16 .f32) (s : FVec Ideal S1024x1 .f32)
    (b : Fin 1024) :
    k0_pay6 (F := Ideal) x g s (ix2 b (0 : Fin 1)) = s (ix2 b (0 : Fin 1)) + ∑ k : Fin 2000, Cert.Spec.wgt x g b k := by
  unfold k0_pay6
  dsimp only
  rw [shapeCast_self, addf_apply, shapeCast_a_a1_apply]
  refine congrArg (s (ix2 b (0 : Fin 1)) + ·) ?_
  exact (rowSum_apply (k0_pay4 (F := Ideal) x g) _ _ _ b).trans (Finset.sum_congr rfl fun k _ => pay4_apply x g b k)

/-- The result block is the weighted sum divided, row by row, by the sum of weights. -/
theorem pay1_apply (a : FVec Ideal S1024x16 .f32) (s : FVec Ideal S1024x1 .f32) (b : Fin 1024) (d : Fin 16) :
    k0_pay1 (F := Ideal) a s (ix2 b d) = Ideal.div (a (ix2 b d)) (s (ix2 b (0 : Fin 1))) := by
  unfold k0_pay1
  rw [divf_apply, broadcastTo_a1_ab_apply]

end Cert.KernelIdeal.Pay

end
-- ==== Proof.KernelValue.lean ====
/-
  The first kernel's running sums in closed form: after point n the weighted sum holds the contributions of the
  bank's rows 0 … 2000·(n+1) − 1, so after the last point the quotient is the weighted average over the whole bank.
-/
import proofs.«121708_g34351148433420_cont_8to1_b_51_5_alg».proof.Proof.KI.Acc
import proofs.«121708_g34351148433420_cont_8to1_b_51_5_alg».proof.Proof.KernelPay
import proofs.«121708_g34351148433420_cont_8to1_b_51_5_alg».proof.Proof.Spec
import Mathlib.Logic.Equiv.Fin.Basic
import Mathlib.Algebra.BigOperators.Fin

noncomputable section

namespace Cert.KernelIdeal.Pay

open Idealize.ShloMosaic Idealize.ShloMosaic.ValueIdx Cert.KernelIdeal Cert.KernelIdeal.Gen Cert.KernelIdeal.Hand

namespace KernelValue

/-- A sum over 100000 = 50 · 2000 indices is the double sum over 50 blocks of 2000 consecutive indices. -/
theorem sum_blocks {M : Type*} [AddCommMonoid M] (f : Fin 100000 → M) :
    ∑ n, f n = ∑ t : Fin 50, ∑ k : Fin 2000,
      f ⟨2000 * t.val + k.val, by have := t.isLt; have := k.isLt; omega⟩ := by
  rw [← Fintype.sum_prod_type
    (f := fun p : Fin 50 × Fin 2000 =>
      f ⟨2000 * p.1.val + p.2.val, by have := p.1.isLt; have := p.2.isLt; omega⟩)]
  refine (Fintype.sum_equiv (finProdFinEquiv (m := 50) (n := 2000)) _ _ ?_).symm
  intro p
  congr 1
  apply Fin.ext
  show 2000 * p.1.val + p.2.val = p.2.val + 2000 * p.1.val
  omega

/-- The weight of a row of a block is the weight of the same row in the bank: the weight of a row depends only on
    that row's 16 entries. -/
theorem wgt_block (x : FVec Ideal S1024x16 .f32) (G : FVec Ideal S100000x16 .f32) (g : FVec Ideal S2000x16 .f32)
    (t : ℕ) (ht : t < 50)
    (hg : ∀ (k : Fin 2000) (j : Fin 16),
      g (ix2 k j) = G (ix2 (⟨2000 * t + k.val, by have := k.isLt; omega⟩ : Fin 100000) j))
    (b : Fin 1024) (k : Fin 2000) :
    Cert.Spec.wgt x g b k
      = Cert.Spec.wgt x G b (⟨2000 * t + k.val, by have := k.isLt; omega⟩ : Fin 100000) := by
  simp only [Cert.Spec.wgt, Cert.Spec.sim, Cert.Spec.unitRow, Cert.Spec.rowNorm, hg]

/-- After point n the weighted sum at (b, d) is the sum, over the blocks 0 … n and the rows of each block, of weight
    times the row's entry d. -/
theorem accAt_fst_apply (x : FVec Ideal S1024x16 .f32) (gb : ℕ → FVec Ideal S2000x16 .f32) (n : ℕ)
    (b : Fin 1024) (d : Fin 16) :
    (accAt (F := Ideal) x gb n).1 (ix2 b d)
      = ∑ t ∈ Finset.range (n + 1), ∑ k : Fin 2000, Cert.Spec.wgt x (gb t) b k * gb t (ix2 k d) := by
  induction n with
  | zero =>
    rw [accAt_zero]
    show k0_pay5 (F := Ideal) x (gb 0) (k0_pay2 (F := Ideal)) (ix2 b d) = _
    rw [pay5_apply, pay2_apply, zero_add, Finset.sum_range_one]
  | succ n ih =>
    rw [accAt_succ]
    show k0_pay5 (F := Ideal) x (gb (n + 1)) (accAt (F := Ideal) x gb n).1 (ix2 b d) = _
    rw [pay5_apply, ih, Finset.sum_range_succ _ (n + 1)]

/-- After point n the sum of weights at row b is the sum, over the blocks 0 … n, of the block's weights. -/
theorem accAt_snd_apply (x : FVec Ideal S1024x16 .f32) (gb : ℕ → FVec Ideal S2000x16 .f32) (n : ℕ)
    (b : Fin 1024) :
    (accAt (F := Ideal) x gb n).2 (ix2 b (0 : Fin 1))
      = ∑ t ∈ Finset.range (n + 1), ∑ k : Fin 2000, Cert.Spec.wgt x (gb t) b k := by
  induction n with
  | zero =>
    rw [accAt_zero]
    show k0_pay6 (F := Ideal) x (gb 0) (k0_pay3 (F := Ideal)) (ix2 b (0 : Fin 1)) = _
    rw [pay6_apply, pay3_apply, zero_add, Finset.sum_range_one]
  | succ n ih =>
    rw [accAt_succ]
    show k0_pay6 (F := Ideal) x (gb (n + 1)) (accAt (F := Ideal) x gb n).2 (ix2 b (0 : Fin 1)) = _
    rw [pay6_apply, ih, Finset.sum_range_succ _ (n + 1)]

end KernelValue

open KernelValue in
/-- When block t of the bank is its rows 2000·t … 2000·t + 1999, the quotient after the 50th point is the weighted
    average over all 100000 rows. -/
theorem outAt_last (x : FVec Ideal S1024x16 .f32) (G : FVec Ideal S100000x16 .f32) (gb : ℕ → FVec Ideal S2000x16 .f32)
    (hgb : ∀ (t : ℕ) (ht : t < 50) (k : Fin 2000) (j : Fin 16),
      gb t (ix2 k j) = G (ix2 (⟨2000 * t + k.val, by have := k.isLt; omega⟩ : Fin 100000) j)) :
    outAt (F := Ideal) x gb 49 = Cert.Spec.read x G := by
  funext i
  obtain ⟨b, d, rfl⟩ : ∃ (b : Fin 1024) (d : Fin 16), i = ix2 b d := ⟨i 0, i 1, eq_ix2 i⟩
  show k0_pay1 (F := Ideal) (accAt (F := Ideal) x gb 49).1 (accAt (F := Ideal) x gb 49).2 (ix2 b d)
    = Ideal.div (Cert.Spec.num x G b d) (Cert.Spec.den x G b)
  rw [pay1_apply, accAt_fst_apply, accAt_snd_apply]
  unfold Cert.Spec.num Cert.Spec.den
  rw [sum_blocks (fun n : Fin 100000 => Cert.Spec.wgt x G b n * G (ix2 n d)),
    sum_blocks (fun n : Fin 100000 => Cert.Spec.wgt x G b n),
    Finset.sum_range (fun t => ∑ k : Fin 2000, Cert.Spec.wgt x (gb t) b k * gb t (ix2 k d)),
    Finset.sum_range (fun t => ∑ k : Fin 2000, Cert.Spec.wgt x (gb t) b k)]
  congr 1
  · refine Finset.sum_congr rfl fun t _ => Finset.sum_congr rfl fun k _ => ?_
    rw [wgt_block x G (gb t.val) t.val t.isLt (hgb t.val t.isLt) b k, hgb t.val t.isLt k d]
  · refine Finset.sum_congr rfl fun t _ => Finset.sum_congr rfl fun k _ => ?_
    rw [wgt_block x G (gb t.val) t.val t.isLt (hgb t.val t.isLt) b k]

end Cert.KernelIdeal.Pay

end
-- ==== Proof.KernelOut.lean ====
/-
  The first kernel's result over the extended reals: the quotient of the two running sums after the last point,
  with the bank's blocks read as rows of the bank, is the weighted average over all of the bank.
-/
import proofs.«121708_g34351148433420_cont_8to1_b_51_5_alg».proof.Proof.KI.Out
import proofs.«121708_g34351148433420_cont_8to1_b_51_5_alg».proof.Proof.KernelValue
import proofs.«121708_g34351148433420_cont_8to1_b_51_5_alg».proof.Proof.Spec

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Block t of the bank, as the first region finds it at launch, is rows 2000·t … 2000·t + 1999 of the bank. -/
theorem bank_blocks (c : Dev nD) (t : ℕ) (ht : t < 50) (k : Fin 2000) (j : Fin 16) :
    gbAt (F := Ideal) (E0 m) c t (ix2 k j)
      = (m ((c : Thread nD τ).loc main_arg1) : S100000x16.Idx → EReal) (ix2 (⟨2000 * t + k.val, by have := k.isLt; omega⟩ : Fin 100000) j) := by
  have htN : t < cfg0.N := by rw [show cfg0.N = 50 from N_0]; exact ht
  unfold gbAt
  rw [dif_pos htN]
  exact iblk0_bank (E0 m) c ⟨t, htN⟩ (ix2 k j) (ix2 (⟨2000 * t + k.val, by have := k.isLt; omega⟩ : Fin 100000) j) rfl rfl

/-- The first result is the weighted average of the bank's rows. -/
theorem quotLast_eq_read (c : Dev nD) :
    quotLast (F := Ideal) (E0 m) c
      = Cert.Spec.read (m ((c : Thread nD τ).loc main_arg0)) (m ((c : Thread nD τ).loc main_arg1)) :=
  Cert.KernelIdeal.Pay.outAt_last (m ((c : Thread nD τ).loc main_arg0)) (m ((c : Thread nD τ).loc main_arg1))
    (gbAt (F := Ideal) (E0 m) c) (bank_blocks m c)

end Cert.KernelIdeal.Hand

end
-- ==== Proof.Gamma.lean ====
/-
  The second kernel's value: over the 100 × 1000 arrangement of the vector it subtracts the largest entry,
  exponentiates and divides by the total; read back as a vector this is the shifted softmax.
-/
import proofs.«121708_g34351148433420_cont_8to1_b_51_5_alg».proof.Proof.Gen.KernelIdeal.Skeleton
import proofs.«121708_g34351148433420_cont_8to1_b_51_5_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! The steps: the body of the second kernel read at an entry, and the re-indexings between the layouts. -/
namespace Gamma

/-- A fold of a commutative and associative operation over all of a finite type does not change when the type is
    re-indexed through a bijection. -/
theorem fold_univ_equiv {α β M : Type} [Fintype α] [Fintype β] (op : M → M → M) [Std.Commutative op] [Std.Associative op]
    (e : α ≃ β) (b : M) (f : β → M) :
    (Finset.univ : Finset α).fold op b (fun a => f (e a)) = (Finset.univ : Finset β).fold op b f := by
  classical
  rw [← Finset.image_univ_equiv e, Finset.fold_image (fun x _ y _ h => e.injective h)]
  rfl

/-- A vector's index set is its coordinate range. -/
def vecIdxEquiv (n : Nat) : Fin n ≃ (⟨1, ![n]⟩ : Shape).Idx where
  toFun := ix1
  invFun i := i 0
  left_inv _ := rfl
  right_inv i := (eq_ix1 i).symm

/-- The f32 pattern of minus infinity is the least extended real. -/
theorem ofBits_negInf_f32 : Ideal.ofBits .f32 0xFF800000#32 = ⊥ := by
  simp [Ideal.ofBits, Ideal.ieee]

/-- Into a shape whose axes all have size one, a maximum-reduction at its one index is the fold of `max`, from the
    accumulator's value, over every index of the source. -/
theorem multiReduction_maximumf_total {s t : Shape} {φ : FTy} {axes : List (Fin s.rank)} (src : FVec Ideal s φ)
    (acc : BitVec φ.bits) (h : s.Reduces axes t) (ht : ∀ b, t.size b = 1) (hφ : FKind.Formats φ)
    (hacc : acc = FKind.maximumf.neutral φ hφ) (j : t.Idx) :
    multiReduction (F := Ideal) .maximumf axes t src acc h hφ hacc j
      = (Finset.univ : Finset s.Idx).fold max (Ideal.ofBits φ acc) src := by
  refine (multiReduction_maximumf_eq_fold src acc h hφ hacc j).trans ?_
  rw [Finset.filter_true_of_mem fun i _ => funext fun b => Fin.ext (by
    have := (h.drop i b).isLt; have := (j b).isLt; have := ht b; omega)]
  rfl

/-- Every axis of the one-element vector shape has size one. -/
theorem S1_unit : ∀ b, S1.size b = 1 := fun b => match b with | ⟨0, _⟩ => rfl

/-- Reading one position of an array laid out anew reads the array at the matching index. -/
theorem extractAt_shapeCast {s t : Shape} {α : Type} (pos : Fin t.rank → Nat) (x : s.Idx → α) (h : s.ShapeCasts t)
    (hp : ∀ a, pos a < t.size a) :
    extractAt pos (shapeCast t x h) hp = x (Shape.reshapeEquiv h fun a => ⟨pos a, hp a⟩) := rfl

/-- The largest entry of a 100 × 1000 array (from `-∞`). -/
def arrMax (v : S100x1000.Idx → EReal) : EReal := (Finset.univ : Finset S100x1000.Idx).fold max ⊥ v

/-- The array laid out as 1 × 100 × 1000, reduced by `max` over its two long axes from `-∞`, the one result laid out as
    1 × 1 × 1 and read: the largest entry of the array. -/
theorem extract_max (w : FVec Ideal S100x1000 .f32) (hc : S100x1000.ShapeCasts S1x100x1000)
    (hr : S1x100x1000.Reduces [1, 2] S1) (hφ : FKind.Formats .f32)
    (hacc : (0xFF800000#32 : BitVec 32) = 0xFF800000#32) (hc' : S1.ShapeCasts S1x1x1)
    (hp : ∀ a, (![0, 0, 0] : Fin 3 → Nat) a < S1x1x1.size a) :
    extractAt ![0, 0, 0] (shapeCast S1x1x1 (multiReduction (F := Ideal) .maximumf [1, 2] S1
      (shapeCast S1x100x1000 w hc) 0xFF800000#32 hr hφ hacc) hc') hp = arrMax w := by
  refine (extractAt_shapeCast _ _ _ _).trans ((multiReduction_maximumf_total _ _ hr S1_unit hφ hacc _).trans ?_)
  rw [ofBits_negInf_f32]
  exact fold_univ_equiv max (Shape.reshapeEquiv hc) ⊥ w

/-- The array laid out as 1 × 100 × 1000, summed over its two long axes, the one result laid out as 1 × 1 × 1 and read:
    the sum of all entries of the array. -/
theorem extract_sum (w : FVec Ideal S100x1000 .f32) (hc : S100x1000.ShapeCasts S1x100x1000)
    (hr : S1x100x1000.Reduces [1, 2] S1) (hφ : FKind.Formats .f32)
    (hacc : (0x00000000#32 : BitVec 32) = 0x00000000#32) (hc' : S1.ShapeCasts S1x1x1)
    (hp : ∀ a, (![0, 0, 0] : Fin 3 → Nat) a < S1x1x1.size a) :
    extractAt ![0, 0, 0] (shapeCast S1x1x1 (multiReduction (F := Ideal) .add [1, 2] S1
      (shapeCast S1x100x1000 w hc) 0x00000000#32 hr hφ hacc) hc') hp = ∑ i : S100x1000.Idx, w i := by
  refine (extractAt_shapeCast _ _ _ _).trans ((Ideal.multiReduction_add_total _ _ hr S1_unit hφ hacc _).trans ?_)
  exact Equiv.sum_comp (Shape.reshapeEquiv hc) w

/-- The exponential of an array, read at an index, is the exponential of the entry there. -/
theorem exp_apply {s : Shape} {φ : FTy} (a : FVec Ideal s φ) (i : s.Idx) : exp a i = Ideal.exp (a i) := rfl

/-- An array less a constant, exponentiated, read at an index: the exponential of the entry less the constant. -/
theorem exp_sub_const_apply {s : Shape} {φ : FTy} (v : FVec Ideal s φ) (m : Ideal φ) (i : s.Idx) :
    exp (subf v (broadcast s m)) i = Ideal.exp (v i - m) := by
  rw [exp_apply, subf_apply, broadcast_apply]

/-- An array divided by a constant, read at an index: the entry divided by the constant. -/
theorem div_const_apply {s : Shape} {φ : FTy} (a : FVec Ideal s φ) (t : Ideal φ) (i : s.Idx) :
    divf a (broadcast s t) i = Ideal.div (a i) t := by
  rw [divf_apply, broadcast_apply]

/-- The second kernel's body at an entry of the 100 × 1000 array: `exp` of the entry less the largest entry, divided by the
    sum of those exponentials over the whole array. -/
theorem k1_pay1_apply (v : FVec Ideal S100x1000 .f32) (i : S100x1000.Idx) :
    k1_pay1 (F := Ideal) v i
      = Ideal.div (Ideal.exp (v i - arrMax v)) (∑ i' : S100x1000.Idx, Ideal.exp (v i' - arrMax v)) := by
  unfold k1_pay1
  simp only [shapeCast_self]
  rw [extract_max, extract_sum, div_const_apply]
  simp only [exp_sub_const_apply]

end Gamma

open Gamma

/-- The vector laid out as 100 × 1000, put through the second kernel's body and laid out as a vector again, is the
    shifted softmax of the vector. -/
theorem gamma_value (γ : FVec Ideal S100000 .f32) :
    shapeCast S100000 (k1_pay1 (F := Ideal) (shapeCast S100x1000 γ Facts₀.shapeCasts_S100000_S100x1000))
      Facts₀.shapeCasts_S100x1000_S100000 = Cert.Spec.gsoft γ := by
  funext j
  have hj : shapeCast S100x1000 γ Facts₀.shapeCasts_S100000_S100x1000
      (Shape.reshapeEquiv Facts₀.shapeCasts_S100x1000_S100000 j) = γ j :=
    congrFun (shapeCast_shapeCast γ Facts₀.shapeCasts_S100000_S100x1000 Facts₀.shapeCasts_S100x1000_S100000) j
  have hM : arrMax (shapeCast S100x1000 γ Facts₀.shapeCasts_S100000_S100x1000) = Cert.Spec.vecMax γ :=
    (fold_univ_equiv max (Shape.reshapeEquiv Facts₀.shapeCasts_S100000_S100x1000) ⊥ γ).trans
      (fold_univ_equiv max (vecIdxEquiv 100000) ⊥ γ).symm
  have hS : ∀ M : EReal, ∑ i' : S100x1000.Idx,
        Ideal.exp (shapeCast S100x1000 γ Facts₀.shapeCasts_S100000_S100x1000 i' - M)
      = ∑ n : Fin 100000, Ideal.exp (γ (ix1 n) - M) := fun M =>
    (Equiv.sum_comp (Shape.reshapeEquiv Facts₀.shapeCasts_S100000_S100x1000) fun i => Ideal.exp (γ i - M)).trans
      (Equiv.sum_comp (vecIdxEquiv 100000) fun i => Ideal.exp (γ i - M)).symm
  show k1_pay1 (F := Ideal) (shapeCast S100x1000 γ Facts₀.shapeCasts_S100000_S100x1000)
    (Shape.reshapeEquiv Facts₀.shapeCasts_S100x1000_S100000 j) = _
  rw [k1_pay1_apply, hj, hM, hS]
  rfl

end Cert.KernelIdeal.Pay

end
-- ==== Proof.Algebra.lean ====
/-
  The one law that joins the two arrangements of output 0: for finite inputs, normalising the weights shifted by
  the row's largest similarity and then averaging is the quotient of the two unshifted sums
  (e^{s − M} = e^{s} · e^{−M} with e^{−M} a positive real, and a real quotient distributes over a finite sum).

  The extended reals do not distribute or cancel at ±∞, so the proof first shows that every quantity in sight is a
  real number (the guard constant, the guarded norms, the unit rows, the similarities, their maximum, the weights
  and their sums), pushes the coercion from the reals outwards, and ends with the identity over the reals.
-/
import proofs.«121708_g34351148433420_cont_8to1_b_51_5_alg».proof.Proof.Spec
import Mathlib.Data.EReal.Basic
import Mathlib.Data.EReal.Operations
import Mathlib.Data.EReal.Inv
import Mathlib.Data.Finset.Fold
import Mathlib.Algebra.BigOperators.Field
import Mathlib.Analysis.SpecialFunctions.Exp
import Mathlib.Analysis.SpecialFunctions.Sqrt

noncomputable section

namespace Cert.Spec

open Idealize.ShloMosaic Idealize.ShloMosaic.ValueIdx

/-! ### The identity over the reals -/

/-- Over the reals and a nonempty finite index set, Σ_n [e^{s_n − M} / Σ_{n'} e^{s_{n'} − M}] · g_n = (Σ_n e^{s_n} · g_n) / (Σ_n e^{s_n}). -/
theorem real_shifted_average {ι : Type} [Fintype ι] [Nonempty ι] (s g : ι → ℝ) (M : ℝ) :
    ∑ n, Real.exp (s n - M) * (1 / ∑ n', Real.exp (s n' - M)) * g n
      = (∑ n, Real.exp (s n) * g n) * (1 / ∑ n, Real.exp (s n)) := by
  have hS : (∑ n, Real.exp (s n)) ≠ 0 :=
    (Finset.sum_pos (fun n _ => Real.exp_pos (s n)) Finset.univ_nonempty).ne'
  have hE : Real.exp (-M) ≠ 0 := (Real.exp_pos (-M)).ne'
  have hshift : ∀ n, Real.exp (s n - M) = Real.exp (s n) * Real.exp (-M) := fun n => by
    rw [sub_eq_add_neg, Real.exp_add]
  have hterm : ∀ n, Real.exp (s n) * Real.exp (-M) * (1 / ((∑ n', Real.exp (s n')) * Real.exp (-M))) * g n
      = Real.exp (s n) * g n * (1 / ∑ n', Real.exp (s n')) := by
    intro n
    field_simp
  simp only [hshift]
  rw [← Finset.sum_mul, Finset.sum_congr rfl (fun n _ => hterm n), ← Finset.sum_mul]

/-! ### Reals inside the extended reals -/

/-- The coercion from the reals to the extended reals commutes with a finite sum. -/
theorem coe_finset_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of extended reals each of which is a real is the sum of those reals. -/
theorem sum_eq_coe_sum {ι : Type} (t : Finset ι) (F : ι → EReal) (f : ι → ℝ)
    (h : ∀ i ∈ t, F i = (f i : EReal)) : ∑ i ∈ t, F i = ((∑ i ∈ t, f i : ℝ) : EReal) := by
  rw [coe_finset_sum]
  exact Finset.sum_congr rfl h

/-- The largest of a nonempty finite family of reals, folded from −∞, is a real. -/
theorem fold_max_coe_real {ι : Type} [Fintype ι] [Nonempty ι] (s : ι → ℝ) :
    ∃ M : ℝ, (Finset.univ : Finset ι).fold max (⊥ : EReal) (fun n => (s n : EReal)) = (M : EReal) := by
  have hlt : (Finset.univ : Finset ι).fold max (⊥ : EReal) (fun n => (s n : EReal)) < ⊤ :=
    (Finset.fold_max_lt _).mpr ⟨bot_lt_top, fun n _ => EReal.coe_lt_top (s n)⟩
  have hgt : ⊥ < (Finset.univ : Finset ι).fold max (⊥ : EReal) (fun n => (s n : EReal)) :=
    (Finset.lt_fold_max _).mpr (Or.inr ⟨Classical.arbitrary ι, Finset.mem_univ _, EReal.bot_lt_coe _⟩)
  exact ⟨_, (EReal.coe_toReal hlt.ne hgt.ne').symm⟩

/-! ### Every quantity of the specification is a real -/

/-- The guard constant is the positive real 9223372 · 2⁻⁶³. -/
theorem eps_pos_real : ∃ r : ℝ, 0 < r ∧ eps = (r : EReal) := by
  refine ⟨9223372 * (2 ^ 63)⁻¹, by positivity, ?_⟩
  unfold eps Ideal.ofBits Ideal.ieee
  simp [EReal.coe_mul]

/-- The guarded norm of a row of reals is a positive real, whatever the sign of the sum under the root. -/
theorem rowNorm_pos_real {R : Nat} (x : (⟨2, ![R, 16]⟩ : Shape).Idx → EReal) (hx : Finite x) (r : Fin R) :
    ∃ ρ : ℝ, 0 < ρ ∧ rowNorm x r = (ρ : EReal) := by
  obtain ⟨e, he, hE⟩ := eps_pos_real
  choose xr hxr using hx
  have hsum : (∑ j : Fin 16, x (ix2 r j) * x (ix2 r j))
      = ((∑ j : Fin 16, xr (ix2 r j) * xr (ix2 r j) : ℝ) : EReal) := by
    refine sum_eq_coe_sum _ _ _ (fun j _ => ?_)
    rw [hxr, EReal.coe_mul]
  rw [rowNorm, hsum, hE, Ideal.sqrt_coe]
  split_ifs with h
  · exact ⟨e, he, max_eq_right bot_le⟩
  · exact ⟨max (Real.sqrt (∑ j : Fin 16, xr (ix2 r j) * xr (ix2 r j))) e, lt_max_of_lt_right he,
      (EReal.coe_strictMono.monotone.map_max).symm⟩

/-- An entry of a row of reals scaled to unit length is a real. -/
theorem unitRow_real {R : Nat} (x : (⟨2, ![R, 16]⟩ : Shape).Idx → EReal) (hx : Finite x) (r : Fin R)
    (j : Fin 16) : ∃ u : ℝ, unitRow x r j = (u : EReal) := by
  obtain ⟨ρ, hρ, hR⟩ := rowNorm_pos_real x hx r
  obtain ⟨a, ha⟩ := hx (ix2 r j)
  exact ⟨a * (1 / ρ), by rw [unitRow, hR, Ideal.div_coe hρ.ne', ha, EReal.coe_mul]⟩

/-- The similarity of two rows of reals is a real. -/
theorem sim_real {B N : Nat} (q : (⟨2, ![B, 16]⟩ : Shape).Idx → EReal) (g : (⟨2, ![N, 16]⟩ : Shape).Idx → EReal)
    (hq : Finite q) (hg : Finite g) (b : Fin B) (n : Fin N) : ∃ σ : ℝ, sim q g b n = (σ : EReal) := by
  choose u hu using fun j => unitRow_real q hq b j
  choose v hv using fun j => unitRow_real g hg n j
  refine ⟨∑ j : Fin 16, u j * v j, ?_⟩
  rw [sim]
  refine sum_eq_coe_sum _ _ _ (fun j _ => ?_)
  rw [hu, hv, EReal.coe_mul]

/-! ### The law -/

/-- For matrices of reals, averaging with the normalised shifted weights is the quotient of the two unshifted sums. -/
theorem readShifted_eq_read (q : (⟨2, ![1024, 16]⟩ : Shape).Idx → EReal) (g : (⟨2, ![100000, 16]⟩ : Shape).Idx → EReal)
    (hq : Finite q) (hg : Finite g) : readShifted q g = read q g := by
  funext i
  -- the similarities of this query row, the bank's entries and the largest similarity, as reals
  choose s hs using fun n : Fin 100000 => sim_real q g hq hg (i 0) n
  choose G hG using hg
  obtain ⟨M, hM⟩ := fold_max_coe_real s
  have hmax : simMax q g (i 0) = (M : EReal) := by
    have hfun : (fun n : Fin 100000 => sim q g (i 0) n) = fun n => (s n : EReal) := funext hs
    show (Finset.univ : Finset (Fin 100000)).fold max ⊥ (fun n => sim q g (i 0) n) = (M : EReal)
    rw [hfun]
    exact hM
  -- the two sums of weights are positive reals
  have hpos₁ : (∑ n : Fin 100000, Real.exp (s n - M)) ≠ 0 :=
    (Finset.sum_pos (fun n _ => Real.exp_pos (s n - M)) Finset.univ_nonempty).ne'
  have hpos₂ : (∑ n : Fin 100000, Real.exp (s n)) ≠ 0 :=
    (Finset.sum_pos (fun n _ => Real.exp_pos (s n)) Finset.univ_nonempty).ne'
  -- the shifted arrangement, as a real
  have hden₁ : (∑ n' : Fin 100000, Ideal.exp (sim q g (i 0) n' - simMax q g (i 0)))
      = ((∑ n' : Fin 100000, Real.exp (s n' - M) : ℝ) : EReal) := by
    refine sum_eq_coe_sum _ _ _ (fun n _ => ?_)
    rw [hs, hmax, ← EReal.coe_sub, Ideal.exp_coe]
  have hL : readShifted q g i
      = ((∑ n : Fin 100000, Real.exp (s n - M) * (1 / ∑ n' : Fin 100000, Real.exp (s n' - M)) * G (ix2 n (i 1)) : ℝ) : EReal) := by
    show (∑ n : Fin 100000, Ideal.div (Ideal.exp (sim q g (i 0) n - simMax q g (i 0)))
      (∑ n' : Fin 100000, Ideal.exp (sim q g (i 0) n' - simMax q g (i 0))) * g (ix2 n (i 1))) = _
    rw [hden₁]
    refine sum_eq_coe_sum _ _ _ (fun n _ => ?_)
    rw [hs, hmax, ← EReal.coe_sub, Ideal.exp_coe, Ideal.div_coe hpos₁, hG, ← EReal.coe_mul, ← EReal.coe_mul]
  -- the quotient of the two running sums, as a real
  have hnum : num q g (i 0) (i 1) = ((∑ n : Fin 100000, Real.exp (s n) * G (ix2 n (i 1)) : ℝ) : EReal) := by
    show (∑ n : Fin 100000, wgt q g (i 0) n * g (ix2 n (i 1))) = _
    refine sum_eq_coe_sum _ _ _ (fun n _ => ?_)
    show Ideal.exp (sim q g (i 0) n) * g (ix2 n (i 1)) = _
    rw [hs, Ideal.exp_coe, hG, EReal.coe_mul]
  have hden : den q g (i 0) = ((∑ n : Fin 100000, Real.exp (s n) : ℝ) : EReal) := by
    show (∑ n : Fin 100000, wgt q g (i 0) n) = _
    refine sum_eq_coe_sum _ _ _ (fun n _ => ?_)
    show Ideal.exp (sim q g (i 0) n) = _
    rw [hs, Ideal.exp_coe]
  have hR : read q g i
      = (((∑ n : Fin 100000, Real.exp (s n) * G (ix2 n (i 1))) * (1 / ∑ n : Fin 100000, Real.exp (s n)) : ℝ) : EReal) := by
    show Ideal.div (num q g (i 0) (i 1)) (den q g (i 0)) = _
    rw [hnum, hden, Ideal.div_coe hpos₂, ← EReal.coe_mul]
  rw [hL, hR, real_shifted_average]

end Cert.Spec

end
-- ==== Proof.RefValue.lean ====
/-
  The reference's two results read index by index: result 0 is the shifted, normalised weights averaged over the
  bank; result 1 is the shifted softmax of the vector.
-/
import proofs.«121708_g34351148433420_cont_8to1_b_51_5_alg».proof.Proof.Gen.ReferenceIdeal.Run
import proofs.«121708_g34351148433420_cont_8to1_b_51_5_alg».proof.Proof.Gen.ReferenceIdeal.Read
import proofs.«121708_g34351148433420_cont_8to1_b_51_5_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-! ## Minus infinity, and a maximum over one axis or over every axis -/

/-- The pattern of minus infinity denotes the bottom of the extended reals. -/
theorem ofBits_negInf : Ideal.ofBits .f32 0xFF800000#32 = (⊥ : EReal) := by
  simp [Ideal.ofBits, Ideal.ieee]

/-- From minus infinity, a reduction over one axis whose body is the maximum is, at each reduced index, the fold of
    `max` from `⊥` over that axis's coordinates. -/
theorem hostMax_fold {s t u : Shape} {a : Fin s.rank} (x : s.Idx → EReal) (init : u.Idx → EReal)
    (h' : s.ReducesTo [a] t) (h : s.Reduces [a] t) (hu : 0 < u.numel) (hinit : init (Shape.Idx.first hu) = ⊥) (j : t.Idx) :
    Host.reduce (FloatOps.maximumf (F := Ideal) (φ := .f32)) x init h' hu j
      = (Finset.univ : Finset (Fin (s.size a))).fold max ⊥ (x ∘ h.lift j) := by
  rw [Host.reduce_eq_fold_single _ x init h' h hu j, hinit]
  rfl

/-- From minus infinity, a reduction into a shape with one index whose body is the maximum is the fold of `max` from
    `⊥` over every index of the operand. -/
theorem hostMax_total {s t u : Shape} {axes : List (Fin s.rank)} (x : s.Idx → EReal) (init : u.Idx → EReal)
    (h' : s.ReducesTo axes t) (ht : ∀ b, t.size b = 1) (hu : 0 < u.numel) (hinit : init (Shape.Idx.first hu) = ⊥)
    (j : t.Idx) :
    Host.reduce (FloatOps.maximumf (F := Ideal) (φ := .f32)) x init h' hu j
      = (Finset.univ : Finset s.Idx).fold max ⊥ x := by
  rw [Host.reduce_eq_fold _ x init h' hu j, hinit, Finset.filter_true_of_mem fun i _ => funext fun b => Fin.ext (by
    have := (h'.drop i b).isLt; have := (j b).isLt; have := ht b; omega)]
  rfl

/-! ## Result 1: the softmax of the vector -/

/-- The vector's indices are its coordinates. -/
def vecEquiv : S100000.Idx ≃ Fin 100000 where
  toFun i := i 0
  invFun n := ix1 n
  left_inv i := (eq_ix1 i).symm
  right_inv _ := rfl

/-- A fold of `max` over the vector's indices is the fold over its coordinates. -/
theorem fold_vec (f : S100000.Idx → EReal) :
    (Finset.univ : Finset S100000.Idx).fold max ⊥ f
      = (Finset.univ : Finset (Fin 100000)).fold max ⊥ (fun n => f (ix1 n)) := by
  rw [← Finset.map_univ_equiv vecEquiv.symm, Finset.fold_map]
  rfl

/-- The reference's maximum of the vector — the reduction from minus infinity, joined once more with minus
    infinity — is the largest entry. -/
theorem vecMax_eq (x2 : (⟨S100000, .f32⟩ : BufTy).Contents (Elt Ideal)) (k : S_.Idx) :
    val_main_v25 (F := Ideal) x2 k = Cert.Spec.vecMax x2 := by
  rw [val_main_v25_apply, val_main_cst_5_apply]
  unfold val_main_v24
  have e := hostMax_total x2 (val_main_cst_4 (F := Ideal)) reducesTo_S100000_S_d0 (fun b => b.elim0) h_S_
    ((val_main_cst_4_apply _).trans ofBits_negInf) k
  refine (congrArg (FloatOps.maximumf (F := Ideal) (φ := .f32) (FloatOps.ofBits .f32 0xFF800000#32)) e).trans ?_
  show max (Ideal.ofBits .f32 0xFF800000#32) _ = _
  rw [ofBits_negInf, max_eq_right bot_le, fold_vec]
  rfl

/-- The shifted exponential of the vector at an index. -/
theorem expShift_vec (x2 : (⟨S100000, .f32⟩ : BufTy).Contents (Elt Ideal)) (i : S100000.Idx) :
    val_main_v29 (F := Ideal) x2 i = Ideal.exp (x2 i - Cert.Spec.vecMax x2) := by
  rw [val_main_v29_apply, val_main_v28_apply, val_main_v27_apply, val_main_v26_apply, vecMax_eq]
  rfl

/-- The sum of the shifted exponentials over the vector. -/
theorem sumExp_vec (x2 : (⟨S100000, .f32⟩ : BufTy).Contents (Elt Ideal)) (k : S_.Idx) :
    val_main_v30 (F := Ideal) x2 k = ∑ n : Fin 100000, Ideal.exp (x2 (ix1 n) - Cert.Spec.vecMax x2) := by
  rw [val_main_v30_apply, val_main_cst_6_apply]
  show Ideal.ofBits .f32 0x00000000#32 + _ = _
  rw [Ideal.ofBits_zero_f32, zero_add, ← Equiv.sum_comp vecEquiv.symm]
  exact Finset.sum_congr rfl fun n _ => expShift_vec x2 (ix1 n)

/-! ## Result 0: the weighted average over the bank -/

/-- Entry `k` of bank row `n`, divided by the guarded norm of the row, as the reference computes it. -/
theorem unitRow_bank (x1 : (⟨S100000x16, .f32⟩ : BufTy).Contents (Elt Ideal)) (n : Fin 100000) (k : Fin 16) :
    val_main_v4 (F := Ideal) x1 (ix2 n k) = Cert.Spec.unitRow x1 n k := by
  have e : ∀ j : Fin 16, idx_main_call0_v1 (idx_main_call0_v2 (idx_main_v3 (ix2 n k))) j = ix2 n j := fun j =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_call0_cst_apply, val_main_v1_apply, val_main_cst_apply]
  simp only [val_main_call0_v0_apply, e]
  show Ideal.div _ (max (Ideal.sqrt (Ideal.ofBits .f32 0x00000000#32 + _)) _) = _
  rw [Ideal.ofBits_zero_f32, zero_add]
  rfl

/-- Entry `k` of query row `b`, divided by the guarded norm of the row, as the reference computes it. -/
theorem unitRow_query (x0 : (⟨S1024x16, .f32⟩ : BufTy).Contents (Elt Ideal)) (b : Fin 1024) (k : Fin 16) :
    val_main_v9 (F := Ideal) x0 (ix2 b k) = Cert.Spec.unitRow x0 b k := by
  have e : ∀ j : Fin 16, idx_main_call1_v1 (idx_main_call1_v2 (idx_main_v8 (ix2 b k))) j = ix2 b j := fun j =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_call1_cst_apply, val_main_v6_apply, val_main_cst_0_apply]
  simp only [val_main_call1_v0_apply, e]
  show Ideal.div _ (max (Ideal.sqrt (Ideal.ofBits .f32 0x00000000#32 + _)) _) = _
  rw [Ideal.ofBits_zero_f32, zero_add]
  rfl

/-- The reference's product of the scaled query with the transposed scaled bank, at (b, n), is the similarity. -/
theorem sim_eq (x0 : (⟨S1024x16, .f32⟩ : BufTy).Contents (Elt Ideal)) (x1 : (⟨S100000x16, .f32⟩ : BufTy).Contents (Elt Ideal))
    (b : Fin 1024) (n : Fin 100000) :
    val_main_v11 (F := Ideal) x0 x1 (ix2 b n) = Cert.Spec.sim x0 x1 b n := by
  rw [val_main_v11_apply]
  unfold Cert.Spec.sim
  refine Finset.sum_congr rfl fun k _ => ?_
  have el : lidx_main_v11 (ix2 b n) k = ix2 b k :=
    funext fun a => Fin.ext (by match a with | ⟨0, _⟩ => rfl | ⟨1, _⟩ => rfl)
  have er : idx_main_v10 (ridx_main_v11 (ix2 b n) k) = ix2 n k :=
    funext fun a => Fin.ext (by match a with | ⟨0, _⟩ => rfl | ⟨1, _⟩ => rfl)
  rw [val_main_v10_apply, el, er, unitRow_query, unitRow_bank]

/-- Row `b` of the similarities with column `k` put back is the index (b, k). -/
theorem lift_row (h : S1024x100000.Reduces [1] S1024) (b : Fin 1024) (k : Fin (S1024x100000.size 1)) :
    h.lift (ix1 b) k = ix2 b (⟨k.val, k.isLt⟩ : Fin 100000) := by
  funext c; apply Fin.ext
  match c with
  | ⟨0, _⟩ => rfl
  | ⟨1, _⟩ => rfl

/-- The reference's row maximum of the similarities — the reduction from minus infinity, joined once more with
    minus infinity — is the largest similarity of the row. -/
theorem simMax_eq (x0 : (⟨S1024x16, .f32⟩ : BufTy).Contents (Elt Ideal)) (x1 : (⟨S100000x16, .f32⟩ : BufTy).Contents (Elt Ideal))
    (b : Fin 1024) :
    val_main_v14 (F := Ideal) x0 x1 (ix1 b) = Cert.Spec.simMax x0 x1 b := by
  have h : S1024x100000.Reduces [1] S1024 := by decide
  rw [val_main_v14_apply, val_main_v13_apply, val_main_cst_2_apply]
  unfold val_main_v12
  have e := hostMax_fold (val_main_v11 (F := Ideal) x0 x1) (val_main_cst_1 (F := Ideal)) reducesTo_S1024x100000_S1024_d1 h h_S_
    ((val_main_cst_1_apply _).trans ofBits_negInf) (ix1 b)
  refine (congrArg (FloatOps.maximumf (F := Ideal) (φ := .f32) (FloatOps.ofBits .f32 0xFF800000#32)) e).trans ?_
  show max (Ideal.ofBits .f32 0xFF800000#32) _ = _
  rw [ofBits_negInf, max_eq_right bot_le]
  unfold Cert.Spec.simMax
  exact congrArg (fun f => Finset.fold max (⊥ : EReal) f (Finset.univ : Finset (Fin 100000)))
    (funext fun n => (congrArg (val_main_v11 (F := Ideal) x0 x1) (lift_row h b n)).trans (sim_eq x0 x1 b _))

/-- The reference's shifted exponential at (b, n). -/
theorem expShift_eq (x0 : (⟨S1024x16, .f32⟩ : BufTy).Contents (Elt Ideal)) (x1 : (⟨S100000x16, .f32⟩ : BufTy).Contents (Elt Ideal))
    (b : Fin 1024) (n : Fin 100000) :
    val_main_v18 (F := Ideal) x0 x1 (ix2 b n)
      = Ideal.exp (Cert.Spec.sim x0 x1 b n - Cert.Spec.simMax x0 x1 b) := by
  have e : idx_main_v15 (idx_main_v16 (ix2 b n)) = ix1 b :=
    funext fun a => Fin.ext (by match a with | ⟨0, _⟩ => rfl)
  rw [val_main_v18_apply, val_main_v17_apply, val_main_v16_apply, val_main_v15_apply, e, simMax_eq, sim_eq]
  rfl

/-- The reference's sum of row `b`'s shifted exponentials. -/
theorem sumExp_eq (x0 : (⟨S1024x16, .f32⟩ : BufTy).Contents (Elt Ideal)) (x1 : (⟨S100000x16, .f32⟩ : BufTy).Contents (Elt Ideal))
    (b : Fin 1024) :
    val_main_v19 (F := Ideal) x0 x1 (ix1 b)
      = ∑ n : Fin 100000, Ideal.exp (Cert.Spec.sim x0 x1 b n - Cert.Spec.simMax x0 x1 b) := by
  rw [val_main_v19_apply, val_main_cst_3_apply]
  show Ideal.ofBits .f32 0x00000000#32 + _ = _
  rw [Ideal.ofBits_zero_f32, zero_add]
  refine Finset.sum_congr rfl fun n _ => ?_
  have e : idx_main_v19 (ix1 b) n = ix2 b n :=
    funext fun a => Fin.ext (by match a with | ⟨0, _⟩ => rfl | ⟨1, _⟩ => rfl)
  rw [e, expShift_eq]

theorem ref_out0 (x0 : (⟨S1024x16, .f32⟩ : BufTy).Contents (Elt Ideal)) (x1 : (⟨S100000x16, .f32⟩ : BufTy).Contents (Elt Ideal)) :
    val_main_v23 (F := Ideal) x0 x1 = Cert.Spec.readShifted x0 x1 := by
  funext i
  obtain ⟨b, d, rfl⟩ : ∃ (b : Fin 1024) (d : Fin 16), i = ix2 b d := ⟨i 0, i 1, eq_ix2 i⟩
  rw [val_main_v23_apply]
  show _ = ∑ n : Fin 100000,
    Ideal.div (Ideal.exp (Cert.Spec.sim x0 x1 b n - Cert.Spec.simMax x0 x1 b))
      (∑ n' : Fin 100000, Ideal.exp (Cert.Spec.sim x0 x1 b n' - Cert.Spec.simMax x0 x1 b)) * x1 (ix2 n d)
  refine Finset.sum_congr rfl fun n _ => ?_
  have el : lidx_main_v23 (ix2 b d) n = ix2 b n :=
    funext fun a => Fin.ext (by match a with | ⟨0, _⟩ => rfl | ⟨1, _⟩ => rfl)
  have er : ridx_main_v23 (ix2 b d) n = ix2 n d :=
    funext fun a => Fin.ext (by match a with | ⟨0, _⟩ => rfl | ⟨1, _⟩ => rfl)
  have e20 : idx_main_v20 (idx_main_v21 (ix2 b n)) = ix1 b :=
    funext fun a => Fin.ext (by match a with | ⟨0, _⟩ => rfl)
  rw [el, er, val_main_v22_apply, val_main_v21_apply, val_main_v20_apply, e20, sumExp_eq, expShift_eq]
  rfl

theorem ref_out1 (x2 : (⟨S100000, .f32⟩ : BufTy).Contents (Elt Ideal)) :
    val_main_v33 (F := Ideal) x2 = Cert.Spec.gsoft x2 := by
  funext i
  rw [val_main_v33_apply, val_main_v32_apply, val_main_v31_apply, sumExp_vec, expShift_vec]
  rfl

end Cert.ReferenceIdeal.RefValue

end
-- ==== Proof.FiniteInputs.lean ====
/-
  The precondition read: when the printed predicate "every entry of every float input has absolute value below +∞"
  is all ones, every entry of the query and of the bank is a real number.
-/
import proofs.«121708_g34351148433420_cont_8to1_b_51_5_alg».proof.Pre_finite_inputs
import proofs.«121708_g34351148433420_cont_8to1_b_51_5_alg».proof.Proof.Gen.Pre_finite_inputs
import proofs.«121708_g34351148433420_cont_8to1_b_51_5_alg».proof.Proof.Spec
import Idealize.ShloMosaic.PureOps.Ideal.Laws
import Idealize.ShloMosaic.Lib.ValueIdx
import Idealize.ShloMosaic.Lib.ReduceAll

noncomputable section

namespace Cert.Pre_finite_inputs.Hand

open Idealize.ShloMosaic Idealize.ShloMosaic.ValueIdx Cert.Pre_finite_inputs

/-- The index type of the shape of rank zero has exactly one element. -/
instance subsingleton_scalar_idx : Subsingleton S_.Idx := ⟨fun a b => funext fun d => d.elim0⟩

/-- The single-precision pattern 0x7F800000 denotes +∞. -/
theorem ofBits_posInf : Ideal.ofBits .f32 0x7F800000#32 = (⊤ : EReal) := by
  simp [Ideal.ofBits, Ideal.ieee]

/-- An extended real whose absolute value max x (−x) lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry at which the comparison |x| < +∞ against the broadcast constant came out 1 is a real number. -/
theorem real_of_cmp_one {s : Shape} (x : FVec Ideal s .f32) (hb : S_.BroadcastsInDim s (![] : Fin 0 → Fin s.rank))
    (i : s.Idx)
    (e : cmpf .olt (Host.absf x) (broadcastInDim s ![] hb (constant S_ .f32 0x7F800000#32)) i = 1#1) :
    ∃ r : ℝ, x i = (r : EReal) := by
  have e' : BitVec.ofBool (decide (max (x i) (-(x i)) < Ideal.ofBits .f32 0x7F800000#32)) = 1#1 := e
  rw [ofBits_posInf] at e'
  by_cases hlt : max (x i) (-(x i)) < ⊤
  · exact real_of_abs_lt_top (x i) hlt
  · rw [decide_eq_false hlt] at e'
    exact absurd e' (by decide)

/-- If the printed predicate is all ones, every entry of the query and of the bank is a real number. -/
theorem finite_of_pre (x0 : FVec Ideal S1024x16 .f32) (x1 : FVec Ideal S100000x16 .f32) (x2 : FVec Ideal S100000 .f32)
    (h : Cert.Pre_finite_inputs.fn (F := Ideal) x0 x1 x2 = fun _ => 1#1) :
    Cert.Spec.Finite x0 ∧ Cert.Spec.Finite x1 := by
  -- the predicate at its one index: the three all-reduces joined by "and"
  have h0 := congrFun h ValueIdx.ix0
  dsimp only [Cert.Pre_finite_inputs.fn] at h0
  obtain ⟨h01, -⟩ := IntOp.andi_eq_one.1 h0
  obtain ⟨hA, hB⟩ := IntOp.andi_eq_one.1 h01
  -- an all-reduce by "and" that is 1 had a 1 at every entry; there the entry is a real
  exact ⟨fun i => real_of_cmp_one x0 _ i (Host.reduce_andi_all _ _ _ _ ix0 hA i),
    fun i => real_of_cmp_one x1 _ i (Host.reduce_andi_all _ _ _ _ ix0 hB i)⟩

end Cert.Pre_finite_inputs.Hand

end
-- ==== Proof.lean ====
/-
  The kernel streams the bank through fifty blocks of 2000 rows, keeping for each query row the running sum of
  e^{s} · (bank row) and the running sum of e^{s}, s the cosine-style similarity of the unit-scaled rows, and divides
  once at the end; a second kernel computes the shifted softmax of a vector laid out as 100 × 1000. The reference
  forms all similarities at once, subtracts each row's largest, normalises the weights and then averages the bank.
  Over the extended reals, for finite inputs, e^{s − M} = e^{s} · e^{−M} with e^{−M} a positive real, so the
  normalised weights are the unshifted ones over their sum and the average is the quotient of the two running sums:
  the two programs end with the same two results. The frames: each program terminates on every weakly fair
  execution and leaves its three argument arrays as launched (the kernel programs by the segment-by-segment run, the
  reference by its run read back).
-/
import proofs.«121708_g34351148433420_cont_8to1_b_51_5_alg».proof.Defs
import proofs.«121708_g34351148433420_cont_8to1_b_51_5_alg».proof.Proof.K.Out
import proofs.«121708_g34351148433420_cont_8to1_b_51_5_alg».proof.Proof.KI.Out
import proofs.«121708_g34351148433420_cont_8to1_b_51_5_alg».proof.Proof.KernelOut
import proofs.«121708_g34351148433420_cont_8to1_b_51_5_alg».proof.Proof.Gamma
import proofs.«121708_g34351148433420_cont_8to1_b_51_5_alg».proof.Proof.Algebra
import proofs.«121708_g34351148433420_cont_8to1_b_51_5_alg».proof.Proof.RefValue
import proofs.«121708_g34351148433420_cont_8to1_b_51_5_alg».proof.Proof.FiniteInputs
import proofs.«121708_g34351148433420_cont_8to1_b_51_5_alg».proof.Proof.Gen.Kernel
import proofs.«121708_g34351148433420_cont_8to1_b_51_5_alg».proof.Proof.Gen.KernelIdeal
import proofs.«121708_g34351148433420_cont_8to1_b_51_5_alg».proof.Proof.Gen.ReferenceIdeal
import proofs.«121708_g34351148433420_cont_8to1_b_51_5_alg».proof.Proof.Gen.ReferenceIdeal.Run
import proofs.«121708_g34351148433420_cont_8to1_b_51_5_alg».proof.Proof.Gen.ReferenceIdeal.Read
import proofs.«121708_g34351148433420_cont_8to1_b_51_5_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments. -/
theorem frame_k : Cert.frame_Kernel := fun m ρ _ => Cert.Kernel.Hand.frame (F := Bits) m ρ

/-- The idealized kernel program runs to the end and leaves its arguments. -/
theorem frame_ki : Cert.frame_KernelIdeal := fun m ρ _ => Cert.KernelIdeal.Hand.frame (F := Ideal) m ρ

/-- The idealized reference runs to the end and leaves its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, both idealized programs end with result 0 at the weighted average of
    the bank's rows and result 1 at the shifted softmax of the vector. -/
theorem algebraic : Cert.algebraic_KernelIdeal_ReferenceIdeal := by
  intro m ρ m' ρ' hpre hagree
  refine ⟨fun c => Cert.Spec.read (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.gsoft (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2.1.trans ?_, (h c).2.2⟩)
      (Cert.KernelIdeal.Hand.run_all (F := Ideal) m ρ)
    · exact Cert.KernelIdeal.Hand.quotLast_eq_read m c
    · exact Cert.KernelIdeal.Pay.gamma_value _
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨hq, hg⟩ := Cert.Pre_finite_inputs.Hand.finite_of_pre _ _ _ (hpre c)
      rw [Cert.ReferenceIdeal.Read.val_main_v23_eq, (hagree c).1, (hagree c).2.1,
        Cert.ReferenceIdeal.RefValue.ref_out0]
      exact Cert.Spec.readShifted_eq_read _ _ hq hg
    · rw [(hagree c).2.2]
      exact (Cert.ReferenceIdeal.Read.val_main_v33_eq _).trans (Cert.ReferenceIdeal.RefValue.ref_out1 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
